-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x257 : Shape := ⟨2, ![128, 257]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x257 : S_.BroadcastsInDim S128x257 (![] : Fin 0 → Fin S128x257.rank)
  reducesTo_S128x257_S_d0_1 : S128x257.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_
  bcast_S_S2x600000 : S_.BroadcastsInDim S2x600000 (![] : Fin 0 → Fin S2x600000.rank)
  reducesTo_S2x600000_S_d0_1 : S2x600000.ReducesTo [0, 1] S_

variable [Facts]

def fn_part2 {F : FTy → Type} [FloatOps F] (main_arg1 : IVec S2x600000 32) (main_v33 : IVec S_ 1) : IVec S_ 1 :=
  let main_c_12 : IVec S_ 32 := constantI S_ 32 4294917296#32
  let main_v34 : IVec S2x600000 32 := broadcastInDim S2x600000 ![] bcast_S_S2x600000 main_c_12
  let main_v35 : IVec S2x600000 1 := cmpi .sge main_arg1 main_v34
  let main_c_13 : IVec S_ 32 := constantI S_ 32 50000#32
  let main_v36 : IVec S2x600000 32 := broadcastInDim S2x600000 ![] bcast_S_S2x600000 main_c_13
  let main_v37 : IVec S2x600000 1 := cmpi .slt main_arg1 main_v36
  let main_v38 : IVec S2x600000 1 := andi main_v35 main_v37
  let main_c_14 : IVec S_ 1 := constantI S_ 1 1#1
  let main_v39 : IVec S_ 1 := (fun x v => Host.reduce IntOp.andi x v reducesTo_S2x600000_S_d0_1 h_S_) main_v38 main_c_14
  let main_v40 : IVec S_ 1 := andi main_v33 main_v39
  main_v40

def fn_part1 {F : FTy → Type} [FloatOps F] (main_arg1 : IVec S2x600000 32) (main_arg5 : FVec F S128 .f32) (main_arg6 : FVec F S1x128 .f32) (main_arg7 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1x128 .f32 := Host.absf main_arg6
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_v33

def fn {F : FTy → Type} [FloatOps F] (main_arg0 : FVec F S50000x128 .f32) (main_arg1 : IVec S2x600000 32) (main_arg2 : FVec F S128x257 .f32) (main_arg3 : FVec F S128 .f32) (main_arg4 : FVec F S128x128 .f32) (main_arg5 : FVec F S128 .f32) (main_arg6 : FVec F S1x128 .f32) (main_arg7 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x257 .f32 := Host.absf main_arg2
  let main_cst_0 : FVec F S_ .f32 := constant S_ .f32 0x7F800000#32
  let main_v5 : FVec F S128x257 .f32 := broadcastInDim S128x257 ![] bcast_S_S128x257 main_cst_0
  let main_v6 : IVec S128x257 1 := cmpf .olt main_v4 main_v5
  let main_c_1 : IVec S_ 1 := constantI S_ 1 1#1
  let main_v7 : IVec S_ 1 := (fun x v => Host.reduce IntOp.andi x v reducesTo_S128x257_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_v13 main_v16
-- ==== Kernel.lean ====
abbrev S50000x128 : Shape := ⟨2, ![50000, 128]⟩
abbrev S2x600000 : Shape := ⟨2, ![2, 600000]⟩
abbrev S128x257 : Shape := ⟨2, ![128, 257]⟩
abbrev S128 : Shape := ⟨1, ![128]⟩
abbrev S128x128 : Shape := ⟨2, ![128, 128]⟩
abbrev S1x128 : Shape := ⟨2, ![1, 128]⟩
abbrev S1 : Shape := ⟨1, ![1]⟩
abbrev S1x600000 : Shape := ⟨2, ![1, 600000]⟩
abbrev S600000 : Shape := ⟨1, ![600000]⟩
abbrev S_ : Shape := ⟨0, ![]⟩
abbrev S600064 : Shape := ⟨1, ![600064]⟩
abbrev S600064x1 : Shape := ⟨2, ![600064, 1]⟩
abbrev S1x1 : Shape := ⟨2, ![1, 1]⟩
abbrev S600064x128 : Shape := ⟨2, ![600064, 128]⟩
abbrev S2048x128 : Shape := ⟨2, ![2048, 128]⟩
abbrev S2048 : Shape := ⟨1, ![2048]⟩
abbrev S2048x1 : Shape := ⟨2, ![2048, 1]⟩
abbrev S2048x257 : Shape := ⟨2, ![2048, 257]⟩
abbrev S257x128 : Shape := ⟨2, ![257, 128]⟩
abbrev S128x1 : Shape := ⟨2, ![128, 1]⟩

abbrev nBuf : Space → Nat
  | .hbm => 71
  | .vmem => 14
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x257, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S_, .i32⟩
  | .hbm, ⟨14, _⟩ => ⟨S600064, .i32⟩
  | .hbm, ⟨15, _⟩ => ⟨S_, .i32⟩
  | .hbm, ⟨16, _⟩ => ⟨S_, .i32⟩
  | .hbm, ⟨17, _⟩ => ⟨S600064, .i32⟩
  | .hbm, ⟨18, _⟩ => ⟨S_, .i32⟩
  | .hbm, ⟨19, _⟩ => ⟨S600064, .i32⟩
  | .hbm, ⟨20, _⟩ => ⟨S600064, .i1⟩
  | .hbm, ⟨21, _⟩ => ⟨S_, .i32⟩
  | .hbm, ⟨22, _⟩ => ⟨S600064, .i32⟩
  | .hbm, ⟨23, _⟩ => ⟨S600064, .i32⟩
  | .hbm, ⟨24, _⟩ => ⟨S600064, .i32⟩
  | .hbm, ⟨25, _⟩ => ⟨S600064x1, .i32⟩
  | .hbm, ⟨26, _⟩ => ⟨S1, .i32⟩
  | .hbm, ⟨27, _⟩ => ⟨S_, .i32⟩
  | .hbm, ⟨28, _⟩ => ⟨S600064x1, .i32⟩
  | .hbm, ⟨29, _⟩ => ⟨S600064x1, .i1⟩
  | .hbm, ⟨30, _⟩ => ⟨S1x1, .i32⟩
  | .hbm, ⟨31, _⟩ => ⟨S600064x1, .i32⟩
  | .hbm, ⟨32, _⟩ => ⟨S600064x1, .i1⟩
  | .hbm, ⟨33, _⟩ => ⟨S600064x1, .i1⟩
  | .hbm, ⟨34, _⟩ => ⟨S_, .i1⟩
  | .hbm, ⟨35, _⟩ => ⟨S600064, .i1⟩
  | .hbm, ⟨36, _⟩ => ⟨S600064x128, .f32⟩
  | .hbm, ⟨37, _⟩ => ⟨S600064x128, .i1⟩
  | .hbm, ⟨38, _⟩ => ⟨S_, .f32⟩
  | .hbm, ⟨39, _⟩ => ⟨S600064x128, .f32⟩
  | .hbm, ⟨40, _⟩ => ⟨S600064x128, .f32⟩
  | .hbm, ⟨41, _⟩ => ⟨S_, .i32⟩
  | .hbm, ⟨42, _⟩ => ⟨S600064, .i32⟩
  | .hbm, ⟨43, _⟩ => ⟨S600064, .i1⟩
  | .hbm, ⟨44, _⟩ => ⟨S_, .i32⟩
  | .hbm, ⟨45, _⟩ => ⟨S600064, .i32⟩
  | .hbm, ⟨46, _⟩ => ⟨S600064, .i32⟩
  | .hbm, ⟨47, _⟩ => ⟨S600064, .i32⟩
  | .hbm, ⟨48, _⟩ => ⟨S600064x1, .i32⟩
  | .hbm, ⟨49, _⟩ => ⟨S1, .i32⟩
  | .hbm, ⟨50, _⟩ => ⟨S_, .i32⟩
  | .hbm, ⟨51, _⟩ => ⟨S600064x1, .i32⟩
  | .hbm, ⟨52, _⟩ => ⟨S600064x1, .i1⟩
  | .hbm, ⟨53, _⟩ => ⟨S1x1, .i32⟩
  | .hbm, ⟨54, _⟩ => ⟨S600064x1, .i32⟩
  | .hbm, ⟨55, _⟩ => ⟨S600064x1, .i1⟩
  | .hbm, ⟨56, _⟩ => ⟨S600064x1, .i1⟩
  | .hbm, ⟨57, _⟩ => ⟨S_, .i1⟩
  | .hbm, ⟨58, _⟩ => ⟨S600064, .i1⟩
  | .hbm, ⟨59, _⟩ => ⟨S600064x128, .f32⟩
  | .hbm, ⟨60, _⟩ => ⟨S600064x128, .i1⟩
  | .hbm, ⟨61, _⟩ => ⟨S_, .f32⟩
  | .hbm, ⟨62, _⟩ => ⟨S600064x128, .f32⟩
  | .hbm, ⟨63, _⟩ => ⟨S600064x128, .f32⟩
  | .hbm, ⟨64, _⟩ => ⟨S128x257, .bf16⟩
  | .hbm, ⟨65, _⟩ => ⟨S128x128, .bf16⟩
  | .hbm, ⟨66, _⟩ => ⟨S1x128, .bf16⟩
  | .hbm, ⟨67, _⟩ => ⟨S600064, .f32⟩
  | .hbm, ⟨68, _⟩ => ⟨S600064, .f32⟩
  | .hbm, ⟨69, _⟩ => ⟨S600000, .f32⟩
  | .hbm, ⟨70, _⟩ => ⟨S600000, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S128x257, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S1x128, .bf16⟩
  | .local _ .vmem, ⟨9, _⟩ => ⟨S1, .f32⟩
  | .local _ .vmem, ⟨10, _⟩ => ⟨S2048, .f32⟩
  | .local _ .vmem, ⟨11, _⟩ => ⟨S2048, .f32⟩
  | .local _ .vmem, ⟨12, _⟩ => ⟨S2048, .f32⟩
  | .local _ .vmem, ⟨13, _⟩ => ⟨S2048, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_call2_c : Ref sig .tc := ⟨.hbm, 18, rfl⟩
abbrev main_call2_v0 : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_v5 : Ref sig .tc := ⟨.hbm, 25, rfl⟩
abbrev main_call2_c_1 : Ref sig .tc := ⟨.hbm, 26, rfl⟩
abbrev main_call2_c_2 : Ref sig .tc := ⟨.hbm, 27, rfl⟩
abbrev main_call2_v6 : Ref sig .tc := ⟨.hbm, 28, rfl⟩
abbrev main_call2_v7 : Ref sig .tc := ⟨.hbm, 29, rfl⟩
abbrev main_call2_v8 : Ref sig .tc := ⟨.hbm, 30, rfl⟩
abbrev main_call2_v9 : Ref sig .tc := ⟨.hbm, 31, rfl⟩
abbrev main_call2_v10 : Ref sig .tc := ⟨.hbm, 32, rfl⟩
abbrev main_call2_v11 : Ref sig .tc := ⟨.hbm, 33, rfl⟩
abbrev main_call2_c_3 : Ref sig .tc := ⟨.hbm, 34, rfl⟩
abbrev main_call2_v12 : Ref sig .tc := ⟨.hbm, 35, rfl⟩
abbrev main_call2_v13 : Ref sig .tc := ⟨.hbm, 36, rfl⟩
abbrev main_call2_v14 : Ref sig .tc := ⟨.hbm, 37, rfl⟩
abbrev main_call2_cst : Ref sig .tc := ⟨.hbm, 38, rfl⟩
abbrev main_call2_v15 : Ref sig .tc := ⟨.hbm, 39, rfl⟩
abbrev main_v6 : Ref sig .tc := ⟨.hbm, 40, rfl⟩
abbrev main_call3_c : Ref sig .tc := ⟨.hbm, 41, rfl⟩
abbrev main_call3_v0 : Ref sig .tc := ⟨.hbm, 42, rfl⟩
abbrev main_call3_v1 : Ref sig .tc := ⟨.hbm, 43, rfl⟩
abbrev main_call3_c_0 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_call3_v5 : Ref sig .tc := ⟨.hbm, 48, rfl⟩
abbrev main_call3_c_1 : Ref sig .tc := ⟨.hbm, 49, rfl⟩
abbrev main_call3_c_2 : Ref sig .tc := ⟨.hbm, 50, rfl⟩
abbrev main_call3_v6 : Ref sig .tc := ⟨.hbm, 51, rfl⟩
abbrev main_call3_v7 : Ref sig .tc := ⟨.hbm, 52, rfl⟩
abbrev main_call3_v8 : Ref sig .tc := ⟨.hbm, 53, rfl⟩
abbrev main_call3_v9 : Ref sig .tc := ⟨.hbm, 54, rfl⟩
abbrev main_call3_v10 : Ref sig .tc := ⟨.hbm, 55, rfl⟩
abbrev main_call3_v11 : Ref sig .tc := ⟨.hbm, 56, rfl⟩
abbrev main_call3_c_3 : Ref sig .tc := ⟨.hbm, 57, rfl⟩
abbrev main_call3_v12 : Ref sig .tc := ⟨.hbm, 58, rfl⟩
abbrev main_call3_v13 : Ref sig .tc := ⟨.hbm, 59, rfl⟩
abbrev main_call3_v14 : Ref sig .tc := ⟨.hbm, 60, rfl⟩
abbrev main_call3_cst : Ref sig .tc := ⟨.hbm, 61, rfl⟩
abbrev main_call3_v15 : Ref sig .tc := ⟨.hbm, 62, rfl⟩
abbrev main_v7 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11_0 : Ref sig .tc := ⟨.hbm, 67, rfl⟩
abbrev main_v11_1 : Ref sig .tc := ⟨.hbm, 68, rfl⟩
abbrev main_v12 : Ref sig .tc := ⟨.hbm, 69, rfl⟩
abbrev main_v13 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![293], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  ![arg0.toNat]

def cc0_transform_9 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x257 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  pads_S600000_S600064_0640 : S600000.Pads (![0] : Fin 1 → Nat) ![64] ![0] S600064
  h_S_ : 0 < S_.numel
  bcast_S_S600064 : S_.BroadcastsInDim S600064 (![] : Fin 0 → Fin S600064.rank)
  bcast_S600064_S600064x1_0 : S600064.BroadcastsInDim S600064x1 (![0] : Fin 1 → Fin S600064x1.rank)
  bcast_S_S600064x1 : S_.BroadcastsInDim S600064x1 (![] : Fin 0 → Fin S600064x1.rank)
  bcast_S1_S1x1_1 : S1.BroadcastsInDim S1x1 (![1] : Fin 1 → Fin S1x1.rank)
  bcast_S1x1_S600064x1_0_1 : S1x1.BroadcastsInDim S600064x1 (![0, 1] : Fin 2 → Fin S600064x1.rank)
  reducesTo_S600064x1_S600064_d1 : S600064x1.ReducesTo [1] S600064
  bcast_S600064_S600064x128_0 : S600064.BroadcastsInDim S600064x128 (![0] : Fin 1 → Fin S600064x128.rank)
  bcast_S_S600064x128 : S_.BroadcastsInDim S600064x128 (![] : Fin 0 → Fin S600064x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  reduces_S2048x128_S2048 : S2048x128.Reduces [1] S2048
  shapeCasts_S2048_S2048x1 : S2048.ShapeCasts S2048x1
  broadcasts_S2048x1_S2048x128 : S2048x1.Broadcasts S2048x128
  concatenates_S2048x128_S2048x128_S2048x1_S2048x257_d1 : Shape.Concatenates [S2048x128, S2048x128, S2048x1] S2048x257 1
  inb_S128x257_S128x257_0_0 : ∀ a, (![0, 0] : Fin 2 → Nat) a + S128x257.size a ≤ S128x257.size a
  h_S128x257 : 0 < S128x257.numel
  shapeCasts_S128x257_S128x257 : S128x257.ShapeCasts S128x257
  transposes_S128x257_p1_0_S257x128 : S128x257.Transposes [1, 0] S257x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  transposes_S1x128_p1_0_S128x1 : S1x128.Transposes [1, 0] S128x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  shapeCasts_S2048x1_S2048 : S2048x1.ShapeCasts S2048
  inb_S2048_S2048_0 : ∀ a, (![0] : Fin 1 → Nat) a + S2048.size a ≤ S2048.size a
  h_S2048 : 0 < S2048.numel
  slices_S600064_S600000_0 : S600064.Slices ![0] S600000
  gather_S50000x128_S600064x1_S600064x128_1_0_n_n_0_1_1128_wf : GatherDims.WF S50000x128 S600064x1 S600064x128 [1] [0] [] [0] [] 1 ![1, 128]
  dot_S2048x257_S257x128_S2048x128_1_0_0_1_n_n_wf : DotDims.WF S2048x257 S257x128 S2048x128 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S600064x128.size a
  hwx0_0 : ∀ i : grid0.Coords, EltTy.bits .f32 = 32 ∨ (Rect.block (s := S600064x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S600064x128.size a
  hwx0_1 : ∀ i : grid0.Coords, EltTy.bits .f32 = 32 ∨ (Rect.block (s := S600064x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x257.size a ≤ S128x257.size a
  hwx0_2 : ∀ i : grid0.Coords, EltTy.bits .bf16 = 32 ∨ (Rect.block (s := S128x257) S128x257.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .bf16 = 32 ∨ (Rect.block (s := S1x128) S1x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048.size a ≤ S600064.size a
  hwx0_8 : ∀ i : grid0.Coords, EltTy.bits .f32 = 32 ∨ (Rect.block (s := S600064) S2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048.size a ≤ S600064.size a
  hwx0_9 : ∀ i : grid0.Coords, EltTy.bits .f32 = 32 ∨ (Rect.block (s := S600064) S2048.size (cc0_transform_9 i) (hinb0_9 i)).WholeWords (EltTy.packing .f32)

variable [Facts₀]

def gather_S50000x128_S600064x1_S600064x128_1_0_n_n_0_1_1128 : GatherDims S50000x128 S600064x1 S600064x128 where
  offsetDims := [1]
  collapsedSliceDims := [0]
  operandBatchingDims := []
  startIndicesBatchingDims := []
  startIndexMap := [0]
  indexVectorDim := 1
  sliceSizes := ![1, 128]
  wf := gather_S50000x128_S600064x1_S600064x128_1_0_n_n_0_1_1128_wf
def dot_S2048x257_S257x128_S2048x128_1_0_0_1_n_n : DotDims S2048x257 S257x128 S2048x128 where
  lhsContracting := [1]
  rhsContracting := [0]
  lhsNonContracting := [0]
  rhsNonContracting := [1]
  lhsBatch := []
  rhsBatch := []
  wf := dot_S2048x257_S257x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v6) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x257.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S2048.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S2048.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x257 : Shape := ⟨2, ![128, 257]⟩
abbrev S128 : Shape := ⟨1, ![128]⟩
abbrev S128x128 : Shape := ⟨2, ![128, 128]⟩
abbrev S1x128 : Shape := ⟨2, ![1, 128]⟩
abbrev S1 : Shape := ⟨1, ![1]⟩
abbrev S_ : Shape := ⟨0, ![]⟩
abbrev S50000 : Shape := ⟨1, ![50000]⟩
abbrev S50000x1 : Shape := ⟨2, ![50000, 1]⟩
abbrev S1x600000 : Shape := ⟨2, ![1, 600000]⟩
abbrev S600000 : Shape := ⟨1, ![600000]⟩
abbrev S600000x1 : Shape := ⟨2, ![600000, 1]⟩
abbrev S600000x128 : Shape := ⟨2, ![600000, 128]⟩
abbrev S600000x257 : Shape := ⟨2, ![600000, 257]⟩
abbrev S257x128 : Shape := ⟨2, ![257, 128]⟩
abbrev S128x1 : Shape := ⟨2, ![128, 1]⟩
abbrev S1x1 : Shape := ⟨2, ![1, 1]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x257, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1, .f32⟩
  | .hbm, ⟨8, _⟩ => ⟨S50000x128, .f32⟩
  | .hbm, ⟨9, _⟩ => ⟨S_, .f32⟩
  | .hbm, ⟨10, _⟩ => ⟨S50000, .f32⟩
  | .hbm, ⟨11, _⟩ => ⟨S50000x1, .f32⟩
  | .hbm, ⟨12, _⟩ => ⟨S50000x1, .f32⟩
  | .hbm, ⟨13, _⟩ => ⟨S_, .f32⟩
  | .hbm, ⟨14, _⟩ => ⟨S50000x1, .f32⟩
  | .hbm, ⟨15, _⟩ => ⟨S50000x1, .f32⟩
  | .hbm, ⟨16, _⟩ => ⟨S50000x128, .f32⟩
  | .hbm, ⟨17, _⟩ => ⟨S50000x128, .f32⟩
  | .hbm, ⟨18, _⟩ => ⟨S1x600000, .i32⟩
  | .hbm, ⟨19, _⟩ => ⟨S600000, .i32⟩
  | .hbm, ⟨20, _⟩ => ⟨S1x600000, .i32⟩
  | .hbm, ⟨21, _⟩ => ⟨S600000, .i32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x128, .f32⟩
  | .hbm, ⟨40, _⟩ => ⟨S600000x128, .f32⟩
  | .hbm, ⟨41, _⟩ => ⟨S600000x128, .f32⟩
  | .hbm, ⟨42, _⟩ => ⟨S_, .f32⟩
  | .hbm, ⟨43, _⟩ => ⟨S600000, .f32⟩
  | .hbm, ⟨44, _⟩ => ⟨S600000, .f32⟩
  | .hbm, ⟨45, _⟩ => ⟨S600000x1, .f32⟩
  | .hbm, ⟨46, _⟩ => ⟨S600000x257, .f32⟩
  | .hbm, ⟨47, _⟩ => ⟨S257x128, .f32⟩
  | .hbm, ⟨48, _⟩ => ⟨S600000x128, .f32⟩
  | .hbm, ⟨49, _⟩ => ⟨S1x128, .f32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S600000x128, .f32⟩
  | .hbm, ⟨54, _⟩ => ⟨S600000x128, .f32⟩
  | .hbm, ⟨55, _⟩ => ⟨S128x128, .f32⟩
  | .hbm, ⟨56, _⟩ => ⟨S600000x128, .f32⟩
  | .hbm, ⟨57, _⟩ => ⟨S1x128, .f32⟩
  | .hbm, ⟨58, _⟩ => ⟨S600000x128, .f32⟩
  | .hbm, ⟨59, _⟩ => ⟨S600000x128, .f32⟩
  | .hbm, ⟨60, _⟩ => ⟨S_, .f32⟩
  | .hbm, ⟨61, _⟩ => ⟨S600000x128, .f32⟩
  | .hbm, ⟨62, _⟩ => ⟨S600000x128, .f32⟩
  | .hbm, ⟨63, _⟩ => ⟨S128x1, .f32⟩
  | .hbm, ⟨64, _⟩ => ⟨S600000x1, .f32⟩
  | .hbm, ⟨65, _⟩ => ⟨S1x1, .f32⟩
  | .hbm, ⟨66, _⟩ => ⟨S600000x1, .f32⟩
  | .hbm, ⟨67, _⟩ => ⟨S600000x1, .f32⟩
  | .hbm, ⟨68, _⟩ => ⟨S600000, .f32⟩
  | .hbm, ⟨69, _⟩ => ⟨S600000, .f32⟩
  | .hbm, ⟨70, _⟩ => ⟨S600000, .f32⟩
  | .hbm, ⟨71, _⟩ => ⟨S_, .f32⟩
  | .hbm, ⟨72, _⟩ => ⟨S600000, .f32⟩
  | .hbm, ⟨73, _⟩ => ⟨S600000, .f32⟩
  | .hbm, ⟨74, _⟩ => ⟨S_, .f32⟩
  | .hbm, ⟨75, _⟩ => ⟨S600000, .f32⟩
  | .hbm, ⟨76, _⟩ => ⟨S600000, .f32⟩
  | .hbm, ⟨77, _⟩ => ⟨S_, .f32⟩
  | .hbm, ⟨78, _⟩ => ⟨S600000, .f32⟩
  | .hbm, ⟨79, _⟩ => ⟨S600000, .f32⟩
  | .hbm, ⟨80, _⟩ => ⟨S_, .f32⟩
  | .hbm, ⟨81, _⟩ => ⟨S600000, .f32⟩
  | .hbm, ⟨82, _⟩ => ⟨S600000, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S600000, .f32⟩
  | .hbm, ⟨87, _⟩ => ⟨S600000, .f32⟩
  | .hbm, ⟨88, _⟩ => ⟨S_, .f32⟩
  | .hbm, ⟨89, _⟩ => ⟨S600000, .f32⟩
  | .hbm, ⟨90, _⟩ => ⟨S600000, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_cst : Ref sig .tc := ⟨.hbm, 9, rfl⟩
abbrev main_call0_v1 : Ref sig .tc := ⟨.hbm, 10, rfl⟩
abbrev main_call0_v2 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_call1_v0 : Ref sig .tc := ⟨.hbm, 41, rfl⟩
abbrev main_call1_cst : Ref sig .tc := ⟨.hbm, 42, rfl⟩
abbrev main_call1_v1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call2_cst : Ref sig .tc := ⟨.hbm, 52, rfl⟩
abbrev main_call2_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call3_cst : Ref sig .tc := ⟨.hbm, 60, rfl⟩
abbrev main_call3_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_cst_4 : Ref sig .tc := ⟨.hbm, 74, rfl⟩
abbrev main_v49 : Ref sig .tc := ⟨.hbm, 75, rfl⟩
abbrev main_v50 : Ref sig .tc := ⟨.hbm, 76, rfl⟩
abbrev main_cst_5 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_cst_8 : Ref sig .tc := ⟨.hbm, 84, rfl⟩
abbrev main_call4_v0 : Ref sig .tc := ⟨.hbm, 85, rfl⟩
abbrev main_call4_v1 : Ref sig .tc := ⟨.hbm, 86, rfl⟩
abbrev main_call4_v2 : Ref sig .tc := ⟨.hbm, 87, rfl⟩
abbrev main_call4_v3 : Ref sig .tc := ⟨.hbm, 88, rfl⟩
abbrev main_call4_v4 : Ref sig .tc := ⟨.hbm, 89, rfl⟩
abbrev main_v55 : Ref sig .tc := ⟨.hbm, 90, rfl⟩

abbrev nD : Nat := 1
abbrev τ : Topo := Topo.v7x

variable {F : FTy → Type} [FloatOps F]

class Facts₀ : Prop where
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x128_S600000_d1 : S600000x128.ReducesTo [1] S600000
  concatenates_S600000x128_S600000x128_S600000x1_S600000x257_d1 : Shape.Concatenates [S600000x128, S600000x128, S600000x1] S600000x257 1
  transposes_S128x257_S257x128_1_0 : S128x257.Transposes [1, 0] S257x128
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  shapeCasts_S600000x1_S600000 : S600000x1.ShapeCasts S600000
  gather_S50000x128_S600000x1_S600000x128_1_0_n_n_0_1_1128_wf : GatherDims.WF S50000x128 S600000x1 S600000x128 [1] [0] [] [0] [] 1 ![1, 128]
  dot_S600000x257_S257x128_S600000x128_1_0_0_1_n_n_wf : DotDims.WF S600000x257 S257x128 S600000x128 [1] [0] [0] [1] [] []
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf

class Facts : Prop extends Facts₀ where

variable [Facts]
-- ==== Proof.EdgeSpec.lean ====
/-
  The edge-scoring network on ONE edge, over the extended reals.

  An edge joins a source node and a target node, each with a row of 128 features. Each row is divided by its
  Euclidean length plus a small constant; the edge's 257 features are the two normalised rows followed by the
  Euclidean distance between them. A perceptron of three layers (257 → 128 → 128 → 1, the first two followed by
  max(·, 0)) turns the features into the gate's logit, and the gate is the logit's sigmoid stretched by 1.2,
  shifted by −0.1 and clipped to [0, 1]. The literals are kept as the 32-bit words both programs print; sums are over
  every index of the summed axis.
-/
import Idealize.ShloMosaic.PureOps.Ideal

noncomputable section

open scoped BigOperators

namespace Cert.EdgeSpec

open Idealize.ShloMosaic

/-- A row divided by (its Euclidean length plus the small constant). -/
def unitRow (x : Fin 128 → EReal) (k : Fin 128) : EReal :=
  Ideal.div (x k) (Ideal.sqrt (∑ j, x j * x j) + Ideal.ofBits .f32 0x322BCC77#32)

/-- The Euclidean distance between the two normalised rows. -/
def rowGap (hs ht : Fin 128 → EReal) : EReal :=
  Ideal.sqrt (∑ k, (unitRow hs k - unitRow ht k) * (unitRow hs k - unitRow ht k))

/-- The edge's 257 features: the normalised source row, the normalised target row, their distance. -/
def feat (hs ht : Fin 128 → EReal) (j : Fin 257) : EReal :=
  if h1 : j.val < 128 then unitRow hs ⟨j.val, h1⟩
  else if h2 : j.val < 128 + 128 then unitRow ht ⟨j.val - 128, by omega⟩
  else rowGap hs ht

/-- The first layer: 257 features to 128 hidden units, then max(·, 0). `W1 i k` is the weight from feature `k` to unit `i`. -/
def hidden1 (W1 : Fin 128 → Fin 257 → EReal) (b1 : Fin 128 → EReal) (hs ht : Fin 128 → EReal) (i : Fin 128) : EReal :=
  max ((∑ k, feat hs ht k * W1 i k) + b1 i) (Ideal.ofBits .f32 0x00000000#32)

/-- The second layer before its bias: 128 hidden units to 128. -/
def pre2 (W1 : Fin 128 → Fin 257 → EReal) (b1 : Fin 128 → EReal) (W2 : Fin 128 → Fin 128 → EReal)
    (hs ht : Fin 128 → EReal) (j : Fin 128) : EReal :=
  ∑ i, hidden1 W1 b1 hs ht i * W2 j i

/-- The third layer over the second's units (bias added, max(·, 0) taken): the gate's logit. -/
def logitOf (b2 : Fin 128 → EReal) (W3 : Fin 128 → EReal) (b3 : EReal) (p : Fin 128 → EReal) : EReal :=
  (∑ j, max (p j + b2 j) (Ideal.ofBits .f32 0x00000000#32) * W3 j) + b3

/-- The edge's logit from the two raw rows and the weights. -/
def logit (W1 : Fin 128 → Fin 257 → EReal) (b1 : Fin 128 → EReal) (W2 : Fin 128 → Fin 128 → EReal) (b2 : Fin 128 → EReal)
    (W3 : Fin 128 → EReal) (b3 : EReal) (hs ht : Fin 128 → EReal) : EReal :=
  logitOf b2 W3 b3 (pre2 W1 b1 W2 hs ht)

/-- The gate: the sigmoid stretched, shifted and clipped to [0, 1]. -/
def gate (x : EReal) : EReal :=
  min (Ideal.ofBits .f32 0x3F800000#32)
    (max (Ideal.ofBits .f32 0x00000000#32)
      (Ideal.logistic x * Ideal.ofBits .f32 0x3F99999A#32 + Ideal.ofBits .f32 0xBDCCCCCD#32))

end Cert.EdgeSpec

end
-- ==== Proof.LibGatherRows.lean ====
/-
  A two-axis table gathered along its FIRST axis by a COLUMN of start indices, read at an index.

  `x[idx]` of `x : [N, B]` at `idx : [R]` lowers to a gather whose start indices are the `[R, 1]` column of `idx`
  and whose result `[R, B]` has one offset axis (the last, running over the table's second axis); the table's first
  axis is collapsed and indexed by the start index. The result element at `(r, b)` is the table's element at row
  `idx[r, 0]`, read as a signed integer and clamped into `[0, N - 1]`, and column `b`.
-/
import Idealize.ShloMosaic.Lib.ValueIdx

noncomputable section

namespace Idealize.ShloMosaic.GatherRows

open Idealize.ShloMosaic Idealize.ShloMosaic.ValueIdx

variable {α : Type}

/-- The clamped start position a signed word names on an axis of extent `N` (slices of one element). -/
abbrev clampPos {w : Nat} (N : Nat) (hN : 0 < N) (v : BitVec w) : Fin N := ⟨min v.toInt.toNat (N - 1), by omega⟩

/-- The dimension numbers of a take of whole rows by a column of start indices. -/
abbrev colDims (N B R : Nat)
    (wf : GatherDims.WF ⟨2, ![N, B]⟩ ⟨2, ![R, 1]⟩ ⟨2, ![R, B]⟩ [1] [0] [] [0] [] 1 ![1, B]) :
    GatherDims ⟨2, ![N, B]⟩ ⟨2, ![R, 1]⟩ ⟨2, ![R, B]⟩ where
  offsetDims := [1]
  collapsedSliceDims := [0]
  operandBatchingDims := []
  startIndicesBatchingDims := []
  startIndexMap := [0]
  indexVectorDim := 1
  sliceSizes := ![1, B]
  wf := wf

/-- On the indexed axis the operand index is the clamped start index. -/
theorem col_axis0 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 0).val
      = min (idx (ix2 (j 0) (0 : Fin 1))).toInt.toNat (N - 1) := by
  show (colDims N B R wf).start j idx 0 + (colDims N B R wf).batchCoord j 0 + (colDims N B R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (colDims N B R wf).startIndexMap from List.mem_singleton.mpr rfl)]
  have hsi : (colDims N B R wf).siIdx j ⟨List.idxOf (0 : Fin 2) (colDims N B R wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the other axis it is the result's offset coordinate. -/
theorem col_axis1 {N B R w : Nat}
    (wf : GatherDims.WF ⟨2, ![N, B]⟩ ⟨2, ![R, 1]⟩ ⟨2, ![R, B]⟩ [1] [0] [] [0] [] 1 ![1, B])
    (idx : IVec ⟨2, ![R, 1]⟩ w) (j : (⟨2, ![R, B]⟩ : Shape).Idx) :
    ((colDims N B R wf).operandIdx j idx 1).val = (j 1).val := by
  show (colDims N B R wf).start j idx 1 + (colDims N B R wf).batchCoord j 1 + (colDims N B R wf).offCoord j 1 = _
  rw [GatherDims.batchCoord_eq_zero _ _ _ List.not_mem_nil]
  unfold GatherDims.start
  rw [dif_neg (show ¬ (1 : Fin 2) ∈ (colDims N B R wf).startIndexMap from
    fun h => absurd (List.mem_singleton.mp h) (by decide : ¬ (1 : Fin 2) = 0))]
  unfold GatherDims.offCoord
  rw [dif_pos (show (1 : Fin 2) ∈ (colDims N B R wf).sKept from
    (GatherDims.mem_sKept _ _).mpr ⟨fun h => absurd (List.mem_singleton.mp h) (by decide : ¬ (1 : Fin 2) = 0), List.not_mem_nil⟩)]
  simp only [Nat.zero_add, Nat.add_zero]
  rfl

/-- THE TAKE OF ROWS AT `(r, b)`: the table at row `idx[r, 0]` (signed, clamped) and column `b`. -/
theorem gather_col_apply {N B R w : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ w) (j : (⟨2, ![R, B]⟩ : Shape).Idx) :
    Host.gather (colDims N B R wf) x idx j
      = x (ix2 (clampPos N hN (idx (ix2 (j 0) (0 : Fin 1)))) (j 1)) := by
  unfold Host.gather
  refine congrArg x (funext fun a => Fin.ext ?_)
  match a with
  | ⟨0, _⟩ => exact col_axis0 wf idx j
  | ⟨1, _⟩ => exact col_axis1 wf idx j

end Idealize.ShloMosaic.GatherRows

end
-- ==== Proof.EdgeArgs.lean ====
/-
  The network's result on edge e as a function of the ARGUMENT ARRAYS.

  The node table has 50000 rows of 128 features; the index array has a row of source indices and a row of target
  indices, one per edge. An index word is read as NumPy reads it: a negative word has the table's extent 50000
  added, and the result is read as a signed number clamped into [0, 49999]. Edge e's logit is the network's logit
  (EdgeSpec) on the two table rows its source and target words name, with the weight matrices and bias vectors read
  entry by entry; its gate is the clipped stretched sigmoid of that logit.
-/
import proofs.«417165_j21345987461746_1_alg».proof.Proof.EdgeSpec
import proofs.«417165_j21345987461746_1_alg».proof.Proof.LibGatherRows
import Idealize.ShloMosaic.Lib.ValueIdx

noncomputable section

namespace Cert.EdgeArgs

open Idealize.ShloMosaic Idealize.ShloMosaic.ValueIdx

/-- An index word with the table's extent added when it is negative. -/
def normWord (w : BitVec 32) : BitVec 32 :=
  Scalar.select (IntOp.cmpi .slt w 0#32) (IntOp.addi w 50000#32) w

/-- The table row an index word names: normalised, read signed, clamped into the table. -/
def rowOf (w : BitVec 32) : Fin 50000 :=
  GatherRows.clampPos 50000 (by decide) (normWord w)

/-- Row `r` of an array with 128 columns. -/
def rowAt {n : Nat} (X : (⟨2, ![n, 128]⟩ : Shape).Idx → EReal) (r : Fin n) : Fin 128 → EReal :=
  fun k => X (ix2 r k)

/-- A matrix by its entries. -/
def mat {a b : Nat} (W : (⟨2, ![a, b]⟩ : Shape).Idx → EReal) : Fin a → Fin b → EReal :=
  fun i k => W (ix2 i k)

/-- A vector by its entries. -/
def vec {a : Nat} (v : (⟨1, ![a]⟩ : Shape).Idx → EReal) : Fin a → EReal :=
  fun i => v (ix1 i)

/-- The logit of the network on two rows given as arrays' rows, with the weights as arrays. -/
def rowsLogit (W1 : (⟨2, ![128, 257]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![1, 128]⟩ : Shape).Idx → EReal) (b3 : (⟨1, ![1]⟩ : Shape).Idx → EReal)
    (hs ht : Fin 128 → EReal) : EReal :=
  EdgeSpec.logit (mat W1) (vec b1) (mat W2) (vec b2) (fun j => W3 (ix2 (0 : Fin 1) j)) (b3 (ix1 (0 : Fin 1))) hs ht

/-- Edge `e`'s logit from the argument arrays. -/
def edgeLogit (X : (⟨2, ![50000, 128]⟩ : Shape).Idx → EReal) (I : (⟨2, ![2, 600000]⟩ : Shape).Idx → BitVec 32)
    (W1 : (⟨2, ![128, 257]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![1, 128]⟩ : Shape).Idx → EReal) (b3 : (⟨1, ![1]⟩ : Shape).Idx → EReal)
    (e : Fin 600000) : EReal :=
  rowsLogit W1 b1 W2 b2 W3 b3 (rowAt X (rowOf (I (ix2 (0 : Fin 2) e)))) (rowAt X (rowOf (I (ix2 (1 : Fin 2) e))))

end Cert.EdgeArgs

end
-- ==== Proof.LibColumns.lean ====
/-
  Columns of a matrix, and three arrays of rows laid side by side, read at an entry.

  A vector of length a set up as an a × 1 column has the vector's entry i at (i, 0); read back as a vector it gives the
  column's entry. A column spread over the b entries of each row has, at (p, c), the column's entry p. Joining an
  n × w₁, an n × w₂ and an n × w₃ array along the column axis gives an array whose entry (r, j) is the first array's
  entry (r, j) for j < w₁, the second's entry (r, j − w₁) for w₁ ≤ j < w₁ + w₂, and the third's entry
  (r, j − w₁ − w₂) from there on.
-/
import Idealize.ShloMosaic.Lib.Pipeline.Value
import Idealize.ShloMosaic.Lib.ValueIdx

noncomputable section

namespace Cert.LibColumns

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` column broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE JOIN OF THREE AT `(r, j)`: the piece whose span of columns holds `j`, at `j` less the widths before it. -/
theorem concat3_apply {n w₁ w₂ w₃ w : ℕ} (x : (⟨2, ![n, w₁]⟩ : Shape).Idx → α) (y : (⟨2, ![n, w₂]⟩ : Shape).Idx → α)
    (z : (⟨2, ![n, w₃]⟩ : Shape).Idx → α)
    (h : Shape.Concatenates [(⟨2, ![n, w₁]⟩ : Shape), ⟨2, ![n, w₂]⟩, ⟨2, ![n, w₃]⟩] ⟨2, ![n, w]⟩ 1)
    (hw : w = w₁ + w₂ + w₃) (r : Fin n) (j : Fin w) :
    concatenate ⟨2, ![n, w]⟩ 1 [⟨⟨2, ![n, w₁]⟩, x⟩, ⟨⟨2, ![n, w₂]⟩, y⟩, ⟨⟨2, ![n, w₃]⟩, z⟩] h (ix2 r j)
      = if h1 : j.val < w₁ then x (ix2 r ⟨j.val, h1⟩)
        else if h2 : j.val < w₁ + w₂ then y (ix2 r ⟨j.val - w₁, by omega⟩)
        else z (ix2 r ⟨j.val - w₁ - w₂, by have := j.isLt; omega⟩) := by
  split
  · next h1 =>
    exact concatenate_apply_piece 1 [⟨⟨2, ![n, w₁]⟩, x⟩, ⟨⟨2, ![n, w₂]⟩, y⟩, ⟨⟨2, ![n, w₃]⟩, z⟩] h (ix2 r j) 0 (by simp) _ x rfl rfl 0 rfl (ix2 r ⟨j.val, h1⟩)
      (fun b hb => match b, hb with
        | ⟨0, _⟩, _ => rfl
        | ⟨1, _⟩, hb => absurd rfl hb) (Nat.zero_add _)
  · next h1 =>
    split
    · next h2 =>
      exact concatenate_apply_piece 1 [⟨⟨2, ![n, w₁]⟩, x⟩, ⟨⟨2, ![n, w₂]⟩, y⟩, ⟨⟨2, ![n, w₃]⟩, z⟩] h (ix2 r j) 1 (by simp) _ y rfl rfl w₁ (by simp) (ix2 r ⟨j.val - w₁, by omega⟩)
        (fun b hb => match b, hb with
          | ⟨0, _⟩, _ => rfl
          | ⟨1, _⟩, hb => absurd rfl hb) (by show w₁ + (j.val - w₁) = j.val; omega)
    · next h2 =>
      exact concatenate_apply_piece 1 [⟨⟨2, ![n, w₁]⟩, x⟩, ⟨⟨2, ![n, w₂]⟩, y⟩, ⟨⟨2, ![n, w₃]⟩, z⟩] h (ix2 r j) 2 (by simp) _ z rfl rfl (w₁ + w₂) (by simp)
        (ix2 r ⟨j.val - w₁ - w₂, by have := j.isLt; omega⟩)
        (fun b hb => match b, hb with
          | ⟨0, _⟩, _ => rfl
          | ⟨1, _⟩, hb => absurd rfl hb) (by show w₁ + w₂ + (j.val - w₁ - w₂) = j.val; omega)

end Cert.LibColumns

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.KernelPayload.lean ====
/-
  The kernel body's arithmetic on one block of 2048 edges, read at a row.

  The body loads a block of source rows and a block of target rows (2048 × 128 each) and the weights, and stores a
  vector of 2048 logits and a vector of 2048 gates. Row r of every intermediate depends on row r of the two loaded
  blocks only: a lane sum over the 128 columns is the sum of the row's entries, a column spread back over the row
  gives the row its own length, the join of the two normalised blocks and the distance column is the row's 257
  features, and a product with a transposed weight matrix is the sum over the contracted index of feature times
  weight. So entry r of the stored logits is the network's logit (EdgeSpec) of the two rows, and entry r of the stored
  gates is its gate. A change of float format is the identity on the extended reals.
-/
import proofs.«417165_j21345987461746_1_alg».proof.Proof.Gen.KernelIdeal.Skeleton
import proofs.«417165_j21345987461746_1_alg».proof.Proof.EdgeArgs
import proofs.«417165_j21345987461746_1_alg».proof.Proof.LibColumns
import proofs.«417165_j21345987461746_1_alg».proof.Proof.LibPlainDot
import Idealize.ShloMosaic.Lib.ValueLayout
import Idealize.ShloMosaic.PureOps.Ideal.Laws

noncomputable section

open scoped BigOperators

namespace Cert.KernelPayload

open Idealize.ShloMosaic Idealize.ShloMosaic.ValueIdx Cert.KernelIdeal Cert.KernelIdeal.Gen Cert.EdgeSpec Cert.EdgeArgs
open Cert.LibColumns

/-- A lane sum over the 128 columns, read at row `r`: the sum of the row's entries. -/
theorem laneSum_apply (v : FVec Ideal S2048x128 .f32) (h : S2048x128.Reduces [1] S2048) (hφ : FKind.Formats .f32)
    (hacc : (0x00000000#32 : BitVec 32) = FKind.add.neutral .f32 hφ) (r : Fin 2048) :
    multiReduction .add [1] S2048 v 0x00000000#32 h hφ hacc (ix1 r) = ∑ k : Fin 128, v (ix2 r k) := by
  refine (Ideal.multiReduction_add_single v 0x00000000#32 h hφ hacc (ix1 r)).trans ?_
  refine Finset.sum_congr rfl fun k _ => congrArg v (funext fun a => Fin.ext ?_)
  match a with
  | ⟨0, _⟩ => rfl
  | ⟨1, _⟩ => rfl

/-- A block divided, row by row, by the row's length plus the small constant: entry (r, k) is the normalised row's
    entry k. -/
theorem unit_apply (x : FVec Ideal S2048x128 .f32) (hR : S2048x128.Reduces [1] S2048) (hφ : FKind.Formats .f32)
    (hacc : (0x00000000#32 : BitVec 32) = FKind.add.neutral .f32 hφ) (hC : S2048.ShapeCasts S2048x1)
    (hB : S2048x1.Broadcasts S2048x128) (r : Fin 2048) (k : Fin 128) :
    divf x (broadcastTo S2048x128 (addf (sqrt (shapeCast S2048x1 (multiReduction .add [1] S2048 (mulf x x) 0x00000000#32 hR hφ hacc) hC))
      (broadcast S2048x1 (Scalar.ofBits .f32 0x322BCC77#32))) hB) (ix2 r k) = unitRow (rowAt x r) k := by
  show Ideal.div (x (ix2 r k)) (broadcastTo S2048x128 _ hB (ix2 r k)) = _
  rw [broadcastTo_a1_ab_apply]
  show Ideal.div (x (ix2 r k)) (Ideal.sqrt (shapeCast S2048x1 _ hC (ix2 r (0 : Fin 1))) + Ideal.ofBits .f32 0x322BCC77#32) = _
  rw [shapeCast_a_a1_apply, laneSum_apply]
  rfl

/-- The column of distances between two blocks' rows: entry (r, ·) is the root of the summed squared differences of
    row r. -/
theorem gap_apply (U V : FVec Ideal S2048x128 .f32) (hR : S2048x128.Reduces [1] S2048) (hφ : FKind.Formats .f32)
    (hacc : (0x00000000#32 : BitVec 32) = FKind.add.neutral .f32 hφ) (hC : S2048.ShapeCasts S2048x1) (r : Fin 2048) (u : Fin 1) :
    sqrt (shapeCast S2048x1 (multiReduction .add [1] S2048 (mulf (subf U V) (subf U V)) 0x00000000#32 hR hφ hacc) hC) (ix2 r u)
      = Ideal.sqrt (∑ k : Fin 128, (U (ix2 r k) - V (ix2 r k)) * (U (ix2 r k) - V (ix2 r k))) := by
  show Ideal.sqrt (shapeCast S2048x1 _ hC (ix2 r u)) = _
  rw [shapeCast_a_a1_apply, laneSum_apply]
  rfl

/-- The join of two normalised blocks and their distance column, read at (r, j): feature j of row r. -/
theorem feat_apply (U V : FVec Ideal S2048x128 .f32) (D : FVec Ideal S2048x1 .f32) (hs ht : Fin 128 → EReal)
    (h : Shape.Concatenates [S2048x128, S2048x128, S2048x1] S2048x257 1) (r : Fin 2048)
    (hU : ∀ k, U (ix2 r k) = unitRow hs k) (hV : ∀ k, V (ix2 r k) = unitRow ht k) (hD : ∀ u, D (ix2 r u) = rowGap hs ht)
    (j : Fin 257) :
    concatenate S2048x257 1 [⟨S2048x128, U⟩, ⟨S2048x128, V⟩, ⟨S2048x1, D⟩] h (ix2 r j) = feat hs ht j := by
  rw [concat3_apply U V D h rfl r j]
  unfold feat
  split
  · exact hU _
  · split
    · exact hV _
    · exact hD _

/-- A bias vector set up as one row and spread over the block's rows: entry (r, n) is the vector's entry n. -/
theorem biasRow_apply {a b : Nat} (v : FVec Ideal ⟨1, ![b]⟩ .f32) (hC : (⟨1, ![b]⟩ : Shape).ShapeCasts ⟨2, ![1, b]⟩)
    (hB : (⟨2, ![1, b]⟩ : Shape).Broadcasts ⟨2, ![a, b]⟩) (r : Fin a) (n : Fin b) :
    broadcastTo ⟨2, ![a, b]⟩ (shapeCast ⟨2, ![1, b]⟩ v hC) hB (ix2 r n) = v (ix1 n) := by
  rw [broadcastTo_1b_ab_apply, shapeCast_a_1a_apply]

/-- A product with a transposed weight matrix into the zero accumulator, at (a, b): the sum over the contracted
    index k of the left entry (a, k) times the weight (b, k). -/
theorem prodT_apply {M K N : Nat} {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : FVec Ideal ⟨2, ![M, K]⟩ φ₁) (W : FVec Ideal ⟨2, ![N, K]⟩ φ₂)
    (hT : (⟨2, ![N, K]⟩ : Shape).Transposes [1, 0] ⟨2, ![K, N]⟩) (a : Fin M) (b : Fin N) :
    matmul d none l (transpose ⟨2, ![K, N]⟩ [1, 0] W hT) (constant ⟨2, ![M, N]⟩ .f32 0x00000000#32) (ix2 a b)
      = ∑ k : Fin K, l (ix2 a k) * W (ix2 b k) := by
  refine (Cert.LibPlainDot.matmul_zero_apply d hlc hrc hln hrn hlb hrb none l _ a b).trans ?_
  refine Finset.sum_congr rfl fun k _ => ?_
  rw [transpose_ix2_apply]

/-- One layer with its bias and max(·, 0), at (r, i): from the layer's input block `C` (its format changed, which is
    the identity here), the weights and the bias vector. -/
theorem layer_apply {K : Nat} (d : DotDims ⟨2, ![2048, K]⟩ ⟨2, ![K, 128]⟩ ⟨2, ![2048, 128]⟩)
    (hlc : d.lhsContracting = [1]) (hrc : d.rhsContracting = [0])
    (hln : d.lhsNonContracting = [0]) (hrn : d.rhsNonContracting = [1])
    (hlb : d.lhsBatch = []) (hrb : d.rhsBatch = [])
    (C : FVec Ideal ⟨2, ![2048, K]⟩ .f32) (hlt : FTy.bits .bf16 < FTy.bits .f32) (W : FVec Ideal ⟨2, ![128, K]⟩ .bf16)
    (hT : (⟨2, ![128, K]⟩ : Shape).Transposes [1, 0] ⟨2, ![K, 128]⟩) (b : FVec Ideal ⟨1, ![128]⟩ .f32)
    (hC : (⟨1, ![128]⟩ : Shape).ShapeCasts ⟨2, ![1, 128]⟩) (hB : (⟨2, ![1, 128]⟩ : Shape).Broadcasts ⟨2, ![2048, 128]⟩)
    (r : Fin 2048) (i : Fin 128) :
    maximumf (addf (matmul d none (truncf .bf16 C hlt) (transpose ⟨2, ![K, 128]⟩ [1, 0] W hT) (constant ⟨2, ![2048, 128]⟩ .f32 0x00000000#32))
        (broadcastTo ⟨2, ![2048, 128]⟩ (shapeCast ⟨2, ![1, 128]⟩ b hC) hB))
      (broadcast ⟨2, ![2048, 128]⟩ (Scalar.ofBits .f32 0x00000000#32)) (ix2 r i)
      = max ((∑ k : Fin K, C (ix2 r k) * W (ix2 i k)) + b (ix1 i)) (Ideal.ofBits .f32 0x00000000#32) := by
  show max (matmul d none (truncf .bf16 C hlt) (transpose ⟨2, ![K, 128]⟩ [1, 0] W hT) (constant ⟨2, ![2048, 128]⟩ .f32 0x00000000#32) (ix2 r i)
      + broadcastTo ⟨2, ![2048, 128]⟩ (shapeCast ⟨2, ![1, 128]⟩ b hC) hB (ix2 r i)) (Ideal.ofBits .f32 0x00000000#32) = _
  rw [biasRow_apply, prodT_apply d hlc hrc hln hrn hlb hrb]
  rfl

/-- The block of 257 features of the two loaded blocks, in the kernel's spelling, at (r, j): feature j of row r. -/
theorem featBlock_apply (x0 x1 : FVec Ideal S2048x128 .f32) (hR : S2048x128.Reduces [1] S2048) (hφ : FKind.Formats .f32)
    (hacc : (0x00000000#32 : BitVec 32) = FKind.add.neutral .f32 hφ) (hC : S2048.ShapeCasts S2048x1)
    (hB : S2048x1.Broadcasts S2048x128) (h : Shape.Concatenates [S2048x128, S2048x128, S2048x1] S2048x257 1)
    (r : Fin 2048) (j : Fin 257) :
    concatenate S2048x257 1
      [⟨S2048x128, divf x0 (broadcastTo S2048x128 (addf (sqrt (shapeCast S2048x1 (multiReduction .add [1] S2048 (mulf x0 x0) 0x00000000#32 hR hφ hacc) hC))
          (broadcast S2048x1 (Scalar.ofBits .f32 0x322BCC77#32))) hB)⟩,
       ⟨S2048x128, divf x1 (broadcastTo S2048x128 (addf (sqrt (shapeCast S2048x1 (multiReduction .add [1] S2048 (mulf x1 x1) 0x00000000#32 hR hφ hacc) hC))
          (broadcast S2048x1 (Scalar.ofBits .f32 0x322BCC77#32))) hB)⟩,
       ⟨S2048x1, sqrt (shapeCast S2048x1 (multiReduction .add [1] S2048
          (mulf (subf (divf x0 (broadcastTo S2048x128 (addf (sqrt (shapeCast S2048x1 (multiReduction .add [1] S2048 (mulf x0 x0) 0x00000000#32 hR hφ hacc) hC))
              (broadcast S2048x1 (Scalar.ofBits .f32 0x322BCC77#32))) hB))
            (divf x1 (broadcastTo S2048x128 (addf (sqrt (shapeCast S2048x1 (multiReduction .add [1] S2048 (mulf x1 x1) 0x00000000#32 hR hφ hacc) hC))
              (broadcast S2048x1 (Scalar.ofBits .f32 0x322BCC77#32))) hB)))
           (subf (divf x0 (broadcastTo S2048x128 (addf (sqrt (shapeCast S2048x1 (multiReduction .add [1] S2048 (mulf x0 x0) 0x00000000#32 hR hφ hacc) hC))
              (broadcast S2048x1 (Scalar.ofBits .f32 0x322BCC77#32))) hB))
            (divf x1 (broadcastTo S2048x128 (addf (sqrt (shapeCast S2048x1 (multiReduction .add [1] S2048 (mulf x1 x1) 0x00000000#32 hR hφ hacc) hC))
              (broadcast S2048x1 (Scalar.ofBits .f32 0x322BCC77#32))) hB))))
          0x00000000#32 hR hφ hacc) hC)⟩] h (ix2 r j)
      = feat (rowAt x0 r) (rowAt x1 r) j := by
  refine feat_apply _ _ _ (rowAt x0 r) (rowAt x1 r) h r (fun k => unit_apply x0 hR hφ hacc hC hB r k)
    (fun k => unit_apply x1 hR hφ hacc hC hB r k) (fun u => ?_) j
  refine (gap_apply _ _ hR hφ hacc hC r u).trans ?_
  unfold rowGap
  refine congrArg Ideal.sqrt (Finset.sum_congr rfl fun k _ => ?_)
  rw [unit_apply x0 hR hφ hacc hC hB r k, unit_apply x1 hR hφ hacc hC hB r k]

/-- THE SECOND LAYER'S PRODUCT, before its bias, at (r, n): the spec's value on row r of the two loaded blocks. -/
theorem pay3_apply (x0 x1 : FVec Ideal S2048x128 .f32) (x2 : FVec Ideal S128x257 .bf16) (x3 : FVec Ideal S128 .f32)
    (x4 : FVec Ideal S128x128 .bf16) (r : Fin 2048) (n : Fin 128) :
    k0_pay3 (F := Ideal) x0 x1 x2 x3 x4 (ix2 r n) = pre2 (mat x2) (vec x3) (mat x4) (rowAt x0 r) (rowAt x1 r) n := by
  unfold k0_pay3
  dsimp only
  rw [shapeCast_self x0, shapeCast_self x1, shapeCast_self x2, shapeCast_self x4]
  refine (prodT_apply _ rfl rfl rfl rfl rfl rfl _ x4 _ r n).trans ?_
  unfold pre2
  refine Finset.sum_congr rfl fun i _ => congrArg (· * x4 (ix2 n i)) ?_
  rw [truncf_apply]
  refine (layer_apply _ rfl rfl rfl rfl rfl rfl _ _ x2 _ x3 _ _ r i).trans ?_
  unfold hidden1
  refine congrArg (fun z => max (z + x3 (ix1 i)) (Ideal.ofBits .f32 0x00000000#32)) ?_
  refine Finset.sum_congr rfl fun j _ => congrArg (· * x2 (ix2 i j)) ?_
  exact featBlock_apply x0 x1 _ _ _ _ _ _ r j

/-- THE STORED LOGITS at entry r, from the second layer's product. -/
theorem pay1_apply (v41 : FVec Ideal S2048x128 .f32) (x5 : FVec Ideal S128 .f32) (x6 : FVec Ideal S1x128 .bf16)
    (x7 : FVec Ideal S1 .f32) (r : Fin 2048) :
    k0_pay1 (F := Ideal) v41 x5 x6 x7 (ix1 r)
      = logitOf (vec x5) (fun j => x6 (ix2 (0 : Fin 1) j)) (x7 (ix1 (0 : Fin 1))) (fun j => v41 (ix2 r j)) := by
  unfold k0_pay1
  dsimp only
  rw [shapeCast_self x6, shapeCast_a1_a_apply]
  show matmul _ none _ _ _ (ix2 r (0 : Fin 1)) + broadcastTo S2048x1 _ _ (ix2 r (0 : Fin 1)) = _
  rw [biasRow_apply]
  unfold logitOf
  refine congrArg (· + x7 (ix1 (0 : Fin 1))) ?_
  refine (Cert.LibPlainDot.matmul_zero_apply _ rfl rfl rfl rfl rfl rfl none _ _ r (0 : Fin 1)).trans ?_
  refine Finset.sum_congr rfl fun j _ => ?_
  rw [transpose_ix2_apply]
  refine congrArg (· * x6 (ix2 (0 : Fin 1) j)) ?_
  show max (v41 (ix2 r j) + broadcastTo S2048x128 _ _ (ix2 r j)) (Ideal.ofBits .f32 0x00000000#32) = _
  rw [biasRow_apply]
  rfl

/-- THE STORED GATES at entry r: the gate of the stored logit. -/
theorem pay2_apply (v41 : FVec Ideal S2048x128 .f32) (x5 : FVec Ideal S128 .f32) (x6 : FVec Ideal S1x128 .bf16)
    (x7 : FVec Ideal S1 .f32) (r : Fin 2048) :
    k0_pay2 (F := Ideal) v41 x5 x6 x7 (ix1 r) = gate (k0_pay1 (F := Ideal) v41 x5 x6 x7 (ix1 r)) := by
  unfold k0_pay2
  rfl

/-- Entry r of the stored logits from the loaded blocks: the network's logit on row r of the two blocks. -/
theorem logit_block (x0 x1 : FVec Ideal S2048x128 .f32) (x2 : FVec Ideal S128x257 .bf16) (x3 : FVec Ideal S128 .f32)
    (x4 : FVec Ideal S128x128 .bf16) (x5 : FVec Ideal S128 .f32) (x6 : FVec Ideal S1x128 .bf16) (x7 : FVec Ideal S1 .f32)
    (r : Fin 2048) :
    k0_pay1 (F := Ideal) (k0_pay3 (F := Ideal) x0 x1 x2 x3 x4) x5 x6 x7 (ix1 r)
      = rowsLogit x2 x3 x4 x5 x6 x7 (rowAt x0 r) (rowAt x1 r) := by
  rw [pay1_apply]
  unfold rowsLogit logit
  refine congrArg (logitOf (vec x5) (fun j => x6 (ix2 (0 : Fin 1) j)) (x7 (ix1 (0 : Fin 1)))) (funext fun j => ?_)
  exact pay3_apply x0 x1 x2 x3 x4 r j

end Cert.KernelPayload

end
-- ==== Proof.KernelBlocks.lean ====
/-
  From the kernel's blocks to its two output arrays.

  The region runs the body at 293 points; point t reads rows 2048·t … 2048·t + 2047 of the two gathered arrays and the
  whole weight arrays, and writes entries 2048·t … 2048·t + 2047 of the two output vectors (length 600064). Entry r of
  what point t writes is the network's logit (and gate) on row r of the two blocks it read, so every entry i of the
  logit vector is the logit on row i of the two gathered arrays: the blocks are restrictions of one function of the
  whole arrays, and the 293 blocks cover the vectors. After the region the program keeps the first 600000 entries of
  each vector.
-/
import proofs.«417165_j21345987461746_1_alg».proof.Proof.Gen.KernelIdeal.Frame
import proofs.«417165_j21345987461746_1_alg».proof.Proof.KernelPayload
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelBlocks

open Cert.KernelIdeal Cert.KernelIdeal.Gen Cert.EdgeSpec Cert.EdgeArgs Cert.KernelPayload

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl

/-- The logit vector over the padded edge axis, from the region's input arrays: entry i is the network's logit on
    row i of the two gathered arrays. -/
def logits (HS HT : FVec Ideal S600064x128 .f32) (W1 : FVec Ideal S128x257 .bf16) (b1 : FVec Ideal S128 .f32)
    (W2 : FVec Ideal S128x128 .bf16) (b2 : FVec Ideal S128 .f32) (W3 : FVec Ideal S1x128 .bf16) (b3 : FVec Ideal S1 .f32) :
    FVec Ideal S600064 .f32 :=
  fun i => rowsLogit W1 b1 W2 b2 W3 b3 (rowAt HS ⟨(i 0).val, (i 0).isLt⟩) (rowAt HT ⟨(i 0).val, (i 0).isLt⟩)

/-- The gate vector: the gate of each logit. -/
def gates (HS HT : FVec Ideal S600064x128 .f32) (W1 : FVec Ideal S128x257 .bf16) (b1 : FVec Ideal S128 .f32)
    (W2 : FVec Ideal S128x128 .bf16) (b2 : FVec Ideal S128 .f32) (W3 : FVec Ideal S1x128 .bf16) (b3 : FVec Ideal S1 .f32) :
    FVec Ideal S600064 .f32 :=
  fun i => gate (logits HS HT W1 b1 W2 b2 W3 b3 i)

/-- The stored logits at an entry of the block, the entry given as an index of the block's shape. -/
theorem logit_block' (x0 x1 : FVec Ideal S2048x128 .f32) (x2 : FVec Ideal S128x257 .bf16) (x3 : FVec Ideal S128 .f32)
    (x4 : FVec Ideal S128x128 .bf16) (x5 : FVec Ideal S128 .f32) (x6 : FVec Ideal S1x128 .bf16) (x7 : FVec Ideal S1 .f32)
    (j : S2048.Idx) :
    k0_pay1 (F := Ideal) (k0_pay3 (F := Ideal) x0 x1 x2 x3 x4) x5 x6 x7 j
      = rowsLogit x2 x3 x4 x5 x6 x7 (rowAt x0 ⟨(j 0).val, (j 0).isLt⟩) (rowAt x1 ⟨(j 0).val, (j 0).isLt⟩) := by
  obtain ⟨r, rfl⟩ : ∃ r : Fin 2048, j = ix1 r := ⟨j 0, eq_ix1 j⟩
  exact logit_block x0 x1 x2 x3 x4 x5 x6 x7 r

/-- The printed index maps, decided over the grid: the two gathered arrays' blocks move with the output blocks, the
    weight arrays are read whole, and the output block index is the point's number. -/
theorem idx_facts : ∀ t : Fin cfg0.N,
    win0_0.index t (0 : Fin 2) = win0_9.index t (0 : Fin 1) ∧ win0_0.index t (1 : Fin 2) = 0
    ∧ win0_1.index t (0 : Fin 2) = win0_9.index t (0 : Fin 1) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 1) = win0_9.index t (0 : Fin 1)
    ∧ win0_9.index t (0 : Fin 1) ≤ 292 :=
  (by decide +kernel : ∀ t : Fin grid0.N, _)

/-- Every block of the output vectors is some point's. -/
theorem idx_onto : ∀ q : Fin 293, ∃ t : Fin cfg0.N, win0_9.index t (0 : Fin 1) = q.val :=
  (by decide +kernel : ∀ q : Fin 293, ∃ t : Fin grid0.N, win0_9.index t (0 : Fin 1) = q.val)

/-- The gate stored at an entry of the block is the gate of the logit stored there. -/
theorem gate_block' (v41 : FVec Ideal S2048x128 .f32) (x5 : FVec Ideal S128 .f32) (x6 : FVec Ideal S1x128 .bf16)
    (x7 : FVec Ideal S1 .f32) (j : S2048.Idx) :
    k0_pay2 (F := Ideal) v41 x5 x6 x7 j = gate (k0_pay1 (F := Ideal) v41 x5 x6 x7 j) := by
  obtain ⟨r, rfl⟩ : ∃ r : Fin 2048, j = ix1 r := ⟨j 0, eq_ix1 j⟩
  exact pay2_apply v41 x5 x6 x7 r

/-! ## Each input block as rows of its array

Each read is stated for ANY contents `A` of the window's array, and then taken at the contents the region finds. -/

/-- A block of the first gathered array at point t: row r of the block is row 2048·(block index) + r of the array. -/
theorem read_rows0 (c : Dev nD) (t : Fin cfg0.N) (A : Buf (Elt Ideal) ((c.tc : Thread nD τ).loc main_v6))
    (r : Fin 2048) (k : Fin 128) (R : Fin 600064) (hR : R.val = win0_9.index t (0 : Fin 1) * 2048 + r.val) :
    (((cfg0.win 0).blk t).view.read (Elt Ideal) A : Vec Ideal S2048x128 .f32) (ix2 r k)
      = (A : S600064x128.Idx → EReal) (ix2 R k) := by
  obtain ⟨e0, e1, -⟩ := idx_facts t
  rw [View.read_apply]
  refine congrArg (A : S600064x128.Idx → EReal) (funext fun a => Fin.ext ?_)
  match a with
  | ⟨0, _⟩ => show win0_0.index t (0 : Fin 2) * 2048 + 1 * r.val = R.val; rw [e0, hR]; omega
  | ⟨1, _⟩ => show win0_0.index t (1 : Fin 2) * 128 + 1 * k.val = k.val; rw [e1]; omega

theorem rows0 (c : Dev nD) (t : Fin cfg0.N) (r : Fin 2048) (k : Fin 128) (R : Fin 600064)
    (hR : R.val = win0_9.index t (0 : Fin 1) * 2048 + r.val) :
    (iblk m c 0 t : Vec Ideal S2048x128 .f32) (ix2 r k) = (V m c main_v6 : S600064x128.Idx → EReal) (ix2 R k) :=
  read_rows0 c t (V m c main_v6) r k R hR

/-- The same for the second gathered array. -/
theorem read_rows1 (c : Dev nD) (t : Fin cfg0.N) (A : Buf (Elt Ideal) ((c.tc : Thread nD τ).loc main_v7))
    (r : Fin 2048) (k : Fin 128) (R : Fin 600064) (hR : R.val = win0_9.index t (0 : Fin 1) * 2048 + r.val) :
    (((cfg0.win 1).blk t).view.read (Elt Ideal) A : Vec Ideal S2048x128 .f32) (ix2 r k)
      = (A : S600064x128.Idx → EReal) (ix2 R k) := by
  obtain ⟨-, -, e0, e1, -⟩ := idx_facts t
  rw [View.read_apply]
  refine congrArg (A : S600064x128.Idx → EReal) (funext fun a => Fin.ext ?_)
  match a with
  | ⟨0, _⟩ => show win0_1.index t (0 : Fin 2) * 2048 + 1 * r.val = R.val; rw [e0, hR]; omega
  | ⟨1, _⟩ => show win0_1.index t (1 : Fin 2) * 128 + 1 * k.val = k.val; rw [e1]; omega

theorem rows1 (c : Dev nD) (t : Fin cfg0.N) (r : Fin 2048) (k : Fin 128) (R : Fin 600064)
    (hR : R.val = win0_9.index t (0 : Fin 1) * 2048 + r.val) :
    (iblk m c 1 t : Vec Ideal S2048x128 .f32) (ix2 r k) = (V m c main_v7 : S600064x128.Idx → EReal) (ix2 R k) :=
  read_rows1 c t (V m c main_v7) r k R hR

/-- The weight arrays and bias vectors are read whole at every point. -/
theorem read_whole2 (c : Dev nD) (t : Fin cfg0.N) (A : Buf (Elt Ideal) ((c.tc : Thread nD τ).loc main_v8)) :
    (((cfg0.win 2).blk t).view.read (Elt Ideal) A : Vec Ideal S128x257 .bf16) = (A : S128x257.Idx → EReal) := by
  obtain ⟨-, -, -, -, e0, e1, -⟩ := idx_facts t
  funext y
  rw [View.read_apply]
  refine congrArg (A : S128x257.Idx → EReal) (funext fun a => Fin.ext ?_)
  match a with
  | ⟨0, _⟩ => show win0_2.index t (0 : Fin 2) * 128 + 1 * (y 0).val = (y 0).val; rw [e0]; omega
  | ⟨1, _⟩ => show win0_2.index t (1 : Fin 2) * 257 + 1 * (y 1).val = (y 1).val; rw [e1]; omega
theorem whole2 (c : Dev nD) (t : Fin cfg0.N) :
    (iblk m c 2 t : Vec Ideal S128x257 .bf16) = (V m c main_v8 : S128x257.Idx → EReal) :=
  read_whole2 c t (V m c main_v8)
theorem read_whole3 (c : Dev nD) (t : Fin cfg0.N) (A : Buf (Elt Ideal) ((c.tc : Thread nD τ).loc main_arg3)) :
    (((cfg0.win 3).blk t).view.read (Elt Ideal) A : Vec Ideal S128 .f32) = (A : S128.Idx → EReal) := by
  obtain ⟨-, -, -, -, -, -, e0, -⟩ := idx_facts t
  funext y
  rw [View.read_apply]
  refine congrArg (A : S128.Idx → EReal) (funext fun a => Fin.ext ?_)
  match a with
  | ⟨0, _⟩ => show win0_3.index t (0 : Fin 1) * 128 + 1 * (y 0).val = (y 0).val; rw [e0]; omega
theorem whole3 (c : Dev nD) (t : Fin cfg0.N) :
    (iblk m c 3 t : Vec Ideal S128 .f32) = (V m c main_arg3 : S128.Idx → EReal) :=
  read_whole3 c t (V m c main_arg3)
theorem read_whole4 (c : Dev nD) (t : Fin cfg0.N) (A : Buf (Elt Ideal) ((c.tc : Thread nD τ).loc main_v9)) :
    (((cfg0.win 4).blk t).view.read (Elt Ideal) A : Vec Ideal S128x128 .bf16) = (A : S128x128.Idx → EReal) := by
  obtain ⟨-, -, -, -, -, -, -, e0, e1, -⟩ := idx_facts t
  funext y
  rw [View.read_apply]
  refine congrArg (A : S128x128.Idx → EReal) (funext fun a => Fin.ext ?_)
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega
theorem whole4 (c : Dev nD) (t : Fin cfg0.N) :
    (iblk m c 4 t : Vec Ideal S128x128 .bf16) = (V m c main_v9 : S128x128.Idx → EReal) :=
  read_whole4 c t (V m c main_v9)
theorem read_whole5 (c : Dev nD) (t : Fin cfg0.N) (A : Buf (Elt Ideal) ((c.tc : Thread nD τ).loc main_arg5)) :
    (((cfg0.win 5).blk t).view.read (Elt Ideal) A : Vec Ideal S128 .f32) = (A : S128.Idx → EReal) := by
  obtain ⟨-, -, -, -, -, -, -, -, -, e0, -⟩ := idx_facts t
  funext y
  rw [View.read_apply]
  refine congrArg (A : S128.Idx → EReal) (funext fun a => Fin.ext ?_)
  match a with
  | ⟨0, _⟩ => show win0_5.index t (0 : Fin 1) * 128 + 1 * (y 0).val = (y 0).val; rw [e0]; omega
theorem whole5 (c : Dev nD) (t : Fin cfg0.N) :
    (iblk m c 5 t : Vec Ideal S128 .f32) = (V m c main_arg5 : S128.Idx → EReal) :=
  read_whole5 c t (V m c main_arg5)
theorem read_whole6 (c : Dev nD) (t : Fin cfg0.N) (A : Buf (Elt Ideal) ((c.tc : Thread nD τ).loc main_v10)) :
    (((cfg0.win 6).blk t).view.read (Elt Ideal) A : Vec Ideal S1x128 .bf16) = (A : S1x128.Idx → EReal) := by
  obtain ⟨-, -, -, -, -, -, -, -, -, -, e0, e1, -⟩ := idx_facts t
  funext y
  rw [View.read_apply]
  refine congrArg (A : S1x128.Idx → EReal) (funext fun a => Fin.ext ?_)
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega
theorem whole6 (c : Dev nD) (t : Fin cfg0.N) :
    (iblk m c 6 t : Vec Ideal S1x128 .bf16) = (V m c main_v10 : S1x128.Idx → EReal) :=
  read_whole6 c t (V m c main_v10)
theorem read_whole7 (c : Dev nD) (t : Fin cfg0.N) (A : Buf (Elt Ideal) ((c.tc : Thread nD τ).loc main_arg7)) :
    (((cfg0.win 7).blk t).view.read (Elt Ideal) A : Vec Ideal S1 .f32) = (A : S1.Idx → EReal) := by
  obtain ⟨-, -, -, -, -, -, -, -, -, -, -, -, e0, -⟩ := idx_facts t
  funext y
  rw [View.read_apply]
  refine congrArg (A : S1.Idx → EReal) (funext fun a => Fin.ext ?_)
  match a with
  | ⟨0, _⟩ => show win0_7.index t (0 : Fin 1) * 1 + 1 * (y 0).val = (y 0).val; rw [e0]; omega
theorem whole7 (c : Dev nD) (t : Fin cfg0.N) :
    (iblk m c 7 t : Vec Ideal S1 .f32) = (V m c main_arg7 : S1.Idx → EReal) :=
  read_whole7 c t (V m c main_arg7)

/-! ## What each point writes back, and the arrays after the run -/

/-- The region's input arrays as the logit vector's arguments. -/
abbrev regionLogits (c : Dev nD) : FVec Ideal S600064 .f32 :=
  logits (V m c main_v6) (V m c main_v7) (V m c main_v8) (V m c main_arg3) (V m c main_v9) (V m c main_arg5)
    (V m c main_v10) (V m c main_arg7)

/-- Entry j of what point t computes for the logit vector is entry (block index · 2048 + j) of the logit vector of the
    whole input arrays. -/
theorem point_logit (c : Dev nD) (t : Fin cfg0.N) (j : S2048.Idx) (i : S600064.Idx)
    (hi : (i 0).val = win0_9.index t (0 : Fin 1) * 2048 + (j 0).val) :
    k0_pay1 (F := Ideal) (k0_pay3 (F := Ideal) (iblk m c 0 t) (iblk m c 1 t) (iblk m c 2 t) (iblk m c 3 t) (iblk m c 4 t))
      (iblk m c 5 t) (iblk m c 6 t) (iblk m c 7 t) j = regionLogits m c i := by
  refine (logit_block' (iblk m c 0 t) (iblk m c 1 t) (iblk m c 2 t) (iblk m c 3 t) (iblk m c 4 t) (iblk m c 5 t)
    (iblk m c 6 t) (iblk m c 7 t) j).trans ?_
  rw [whole2 m c t, whole3 m c t, whole4 m c t, whole5 m c t, whole6 m c t, whole7 m c t]
  have r0 : rowAt (iblk m c 0 t : Vec Ideal S2048x128 .f32) ⟨(j 0).val, (j 0).isLt⟩
      = rowAt (V m c main_v6 : S600064x128.Idx → EReal) ⟨(i 0).val, (i 0).isLt⟩ :=
    funext fun k => rows0 m c t ⟨(j 0).val, (j 0).isLt⟩ k ⟨(i 0).val, (i 0).isLt⟩ hi
  have r1 : rowAt (iblk m c 1 t : Vec Ideal S2048x128 .f32) ⟨(j 0).val, (j 0).isLt⟩
      = rowAt (V m c main_v7 : S600064x128.Idx → EReal) ⟨(i 0).val, (i 0).isLt⟩ :=
    funext fun k => rows1 m c t ⟨(j 0).val, (j 0).isLt⟩ k ⟨(i 0).val, (i 0).isLt⟩ hi
  rw [r0, r1]
  rfl

/-- The gate vector of the region's input arrays. -/
abbrev regionGates (c : Dev nD) : FVec Ideal S600064 .f32 :=
  gates (V m c main_v6) (V m c main_v7) (V m c main_v8) (V m c main_arg3) (V m c main_v9) (V m c main_arg5)
    (V m c main_v10) (V m c main_arg7)

/-- Entry j of what point t computes for the gate vector is the gate of the logit there. -/
theorem point_gate (c : Dev nD) (t : Fin cfg0.N) (j : S2048.Idx) (i : S600064.Idx)
    (hi : (i 0).val = win0_9.index t (0 : Fin 1) * 2048 + (j 0).val) :
    k0_pay2 (F := Ideal) (k0_pay3 (F := Ideal) (iblk m c 0 t) (iblk m c 1 t) (iblk m c 2 t) (iblk m c 3 t) (iblk m c 4 t))
      (iblk m c 5 t) (iblk m c 6 t) (iblk m c 7 t) j = regionGates m c i :=
  (gate_block' _ _ _ _ j).trans (congrArg gate (point_logit m c t j i hi))

/-- WHAT POINT t WRITES BACK to the logit vector is block t of the logit vector of the whole input arrays. -/
theorem flushed9_eq (c : Dev nD) (t : Fin cfg0.N) :
    (dats m 0 c).flushed 9 t = ((cfg0.win 9).blk t).view.read (Elt Ideal) (regionLogits m c) := by
  show (cfg0.win 9).cut (grid0.coords t) ((dats m 0 c).after 9 t) = _
  rw [after0_9]
  unfold out0_9
  rw [View.canon_unit_zero hz1]
  simp only [View.ld_unit_zero (S := S2048x128) hz2, View.ld_unit_zero (S := S128x257) hz2, View.ld_unit_zero (S := S128) hz1,
    View.ld_unit_zero (S := S128x128) hz2, View.ld_unit_zero (S := S1x128) hz2, View.ld_unit_zero (S := S1) hz1]
  funext j
  show k0_pay1 (F := Ideal) (k0_pay3 (F := Ideal) (iblk m c 0 t) (iblk m c 1 t) (iblk m c 2 t) (iblk m c 3 t) (iblk m c 4 t))
      (iblk m c 5 t) (iblk m c 6 t) (iblk m c 7 t) j = regionLogits m c (((cfg0.win 9).blk t).view.emb j)
  refine point_logit m c t j _ ?_
  show win0_9.index t (0 : Fin 1) * 2048 + 1 * (j 0).val = win0_9.index t (0 : Fin 1) * 2048 + (j 0).val
  omega

/-- WHAT POINT t WRITES BACK to the gate vector is block t of the gate vector of the whole input arrays. -/
theorem flushed8_eq (c : Dev nD) (t : Fin cfg0.N) :
    (dats m 0 c).flushed 8 t = ((cfg0.win 8).blk t).view.read (Elt Ideal) (regionGates m c) := by
  obtain ⟨-, -, -, -, -, -, -, -, -, -, -, -, -, e8, -⟩ := idx_facts t
  show (cfg0.win 8).cut (grid0.coords t) ((dats m 0 c).after 8 t) = _
  rw [after0_8]
  unfold out0_8
  rw [View.canon_unit_zero hz1]
  simp only [View.ld_unit_zero (S := S2048x128) hz2, View.ld_unit_zero (S := S128x257) hz2, View.ld_unit_zero (S := S128) hz1,
    View.ld_unit_zero (S := S128x128) hz2, View.ld_unit_zero (S := S1x128) hz2, View.ld_unit_zero (S := S1) hz1]
  funext j
  show k0_pay2 (F := Ideal) (k0_pay3 (F := Ideal) (iblk m c 0 t) (iblk m c 1 t) (iblk m c 2 t) (iblk m c 3 t) (iblk m c 4 t))
      (iblk m c 5 t) (iblk m c 6 t) (iblk m c 7 t) j = regionGates m c (((cfg0.win 8).blk t).view.emb j)
  refine point_gate m c t j _ ?_
  show win0_8.index t (0 : Fin 1) * 2048 + 1 * (j 0).val = win0_9.index t (0 : Fin 1) * 2048 + (j 0).val
  rw [e8]
  omega

/-- An entry of an output vector is in point t's block iff it lies in the block's range. -/
theorem mem_blk9 (t : Fin cfg0.N) (i : S600064.Idx) :
    i ∈ ((cfg0.win 9).blk t).view.set
      ↔ ∀ a : Fin 1, win0_9.index t a * S2048.size a ≤ (i a).val ∧ (i a).val < win0_9.index t a * S2048.size a + S2048.size a := by
  show i ∈ ((View.whole main_v11_1).slice (win0_9.rect t)).set ↔ _
  rw [View.set_slice_whole, Rect.mem_set_unit]
  exact Iff.rfl
theorem mem_blk8 (t : Fin cfg0.N) (i : S600064.Idx) :
    i ∈ ((cfg0.win 8).blk t).view.set
      ↔ ∀ a : Fin 1, win0_8.index t a * S2048.size a ≤ (i a).val ∧ (i a).val < win0_8.index t a * S2048.size a + S2048.size a := by
  show i ∈ ((View.whole main_v11_0).slice (win0_8.rect t)).set ↔ _
  rw [View.set_slice_whole, Rect.mem_set_unit]
  exact Iff.rfl

/-- The 293 blocks cover each output vector: entry i lies in the block of point i / 2048. -/
theorem cover9 (i : S600064.Idx) : ∃ t : Fin cfg0.N, (cfg0.win 9).flush t = true ∧ i ∈ ((cfg0.win 9).blk t).view.set := by
  have hi : (i 0).val < 600064 := (i 0).isLt
  obtain ⟨t, ht⟩ := idx_onto ⟨(i 0).val / 2048, by omega⟩
  refine ⟨t, flush0_9 t, ?_⟩
  rw [mem_blk9]
  intro a
  match a with
  | ⟨0, _⟩ =>
    show win0_9.index t (0 : Fin 1) * 2048 ≤ (i 0).val ∧ (i 0).val < win0_9.index t (0 : Fin 1) * 2048 + 2048
    rw [ht]
    show (i 0).val / 2048 * 2048 ≤ (i 0).val ∧ (i 0).val < (i 0).val / 2048 * 2048 + 2048
    omega
theorem cover8 (i : S600064.Idx) : ∃ t : Fin cfg0.N, (cfg0.win 8).flush t = true ∧ i ∈ ((cfg0.win 8).blk t).view.set := by
  have hi : (i 0).val < 600064 := (i 0).isLt
  obtain ⟨t, ht⟩ := idx_onto ⟨(i 0).val / 2048, by omega⟩
  obtain ⟨-, -, -, -, -, -, -, -, -, -, -, -, -, e8, -⟩ := idx_facts t
  refine ⟨t, flush0_8 t, ?_⟩
  rw [mem_blk8]
  intro a
  match a with
  | ⟨0, _⟩ =>
    show win0_8.index t (0 : Fin 1) * 2048 ≤ (i 0).val ∧ (i 0).val < win0_8.index t (0 : Fin 1) * 2048 + 2048
    rw [e8, ht]
    show (i 0).val / 2048 * 2048 ≤ (i 0).val ∧ (i 0).val < (i 0).val / 2048 * 2048 + 2048
    omega

/-- THE TWO OUTPUT VECTORS after the run: the logit vector and the gate vector of the region's input arrays. -/
theorem final9 (c : Dev nD) : (dats m 0 c).arrAt 9 cfg0.N = regionLogits m c :=
  (dats m 0 c).arrAt_eq_of_cover 9 (regionLogits m c) (fun t _ => flushed9_eq m c t) cover9
theorem final8 (c : Dev nD) : (dats m 0 c).arrAt 8 cfg0.N = regionGates m c :=
  (dats m 0 c).arrAt_eq_of_cover 8 (regionGates m c) (fun t _ => flushed8_eq m c t) cover8

end Cert.KernelBlocks

end
-- ==== Proof.LibAllOnes.lean ====
/-
  Truth values that are all ones, and index words in a range.

  A reduction by `and` from a true initial value over an array of truth values that are all true is true (the
  converse of reading a `jnp.all` back). A 32-bit word that is at least zero and below `n` as a SIGNED number is
  below `n` unsigned; such a word is not negative, so the test "negative?" answers false on it and the tests
  "at least zero?" and "at most n − 1?" answer true.
-/
import Idealize.ShloMosaic.Lib.ReduceAll
import Idealize.ShloMosaic.Lib.StableHlo.Predicate
import Idealize.ShloMosaic.Lib.ValueIdx

noncomputable section

namespace Cert.LibAllOnes

open Idealize.ShloMosaic Idealize.ShloMosaic.StableHlo.Predicate

/-- A left fold by `and` from true over true values is true. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A `stablehlo.reduce` by `and` from a true initial value over an array that is true everywhere is true. -/
theorem reduce_andi_ones {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_ones x hx _

/-- A word in [0, n) as a signed number is below n unsigned. -/
theorem toNat_lt_of_signed (w : BitVec 32) (n : Nat) (hn : n < 2 ^ 31) (h0 : IntOp.cmpi .sge w (0#32) = 1#1)
    (h1 : IntOp.cmpi .slt w (BitVec.ofNat 32 n) = 1#1) : w.toNat < n := by
  unfold IntOp.cmpi at h0 h1
  rw [ofBool_eq_one_iff] at h0 h1
  simp only [BitVec.slt, BitVec.sle, decide_eq_true_eq] at h0 h1
  have h32 := w.isLt
  unfold BitVec.toInt at h0 h1
  split at h1 <;> simp at h0 h1 <;> omega

/-- A word below 2³¹ is not negative: the signed test against zero answers false. -/
theorem slt_zero (w : BitVec 32) (hw : w.toNat < 2 ^ 31) : IntOp.cmpi .slt w (0#32) = 0#1 := by
  refine ValueIdx.eq_zero_of_ne_one fun h => ?_
  have := (slt_iff_toNat (a := w) (b := 0#32) hw (by decide)).1 h
  simp at this

/-- A word below 2³¹ is at least zero as a signed number. -/
theorem sge_zero (w : BitVec 32) (hw : w.toNat < 2 ^ 31) : IntOp.cmpi .sge w (0#32) = 1#1 :=
  (sge_iff_toNat (a := w) (b := 0#32) hw (by decide)).2 (by simp)

/-- A word at most `n` (below 2³¹) is at most `n` as a signed number. -/
theorem sle_ofNat (w : BitVec 32) (n : Nat) (hn : n < 2 ^ 31) (hw : w.toNat ≤ n) : IntOp.cmpi .sle w (BitVec.ofNat 32 n) = 1#1 := by
  have hb : (BitVec.ofNat 32 n).toNat = n := by simp [BitVec.toNat_ofNat]; omega
  exact (sle_iff_toNat (a := w) (b := BitVec.ofNat 32 n) (by omega) (by omega)).2 (by omega)

end Cert.LibAllOnes

end
-- ==== Proof.LibTypedRef.lean ====
/-
  A value written through a typed reference and read back through it is the value: the two transports along the
  reference's type equation cancel.
-/
import Idealize.ShloMosaic.Lib.StableHlo

noncomputable section

namespace Cert.LibTypedRef

open Idealize.ShloMosaic Idealize.ShloMosaic.StableHlo

theorem ofBuf_toBuf {sig : RefSig} {T : BufTy} {Val : EltTy → Type} (x : TRef sig T) (v : T.Contents Val) :
    x.ofBuf (x.toBuf v) = v := by
  obtain ⟨r, h, h2, h3⟩ := x
  subst h
  rfl

end Cert.LibTypedRef

end
-- ==== Proof.KernelHost.lean ====
/-
  What the kernel's host code hands the region: the gathered rows and the weights.

  Before the region the program takes each row of the index array, appends 64 zero words (so that the edges fill whole
  blocks of 2048), and TAKES the table rows those words name: a word has the table's extent 50000 added when it is
  negative; where the result lies in [0, 49999] the row it names is read, elsewhere a fill value. It also changes the
  format of the three weight matrices, which is the identity on the extended reals. Where every index word is in range
  (the mask is one everywhere) the taken array's entry (e, k) is the table's entry at the row edge e's word names.
-/
import proofs.«417165_j21345987461746_1_alg».proof.Proof.Gen.KernelIdeal.Frame
import proofs.«417165_j21345987461746_1_alg».proof.Proof.EdgeArgs
import proofs.«417165_j21345987461746_1_alg».proof.Proof.LibAllOnes
import proofs.«417165_j21345987461746_1_alg».proof.Proof.LibTypedRef
import Idealize.ShloMosaic.Lib.StableHlo.Run
import Idealize.ShloMosaic.Lib.StableHlo.Predicate
import Idealize.ShloMosaic.Lib.KernelVsHost
import Idealize.ShloMosaic.Lib.ValueLayout
import Idealize.ShloMosaic.PureOps.Ideal

set_option maxRecDepth 16384

noncomputable section

namespace Cert.KernelHost

open Idealize.ShloMosaic Idealize.ShloMosaic.TcCoe Idealize.SL.Sem Idealize.ShloMosaic.StableHlo Idealize.ShloMosaic.ValueIdx
open Cert.KernelIdeal Cert.KernelIdeal.Gen Cert.EdgeArgs

/-- Row `a` of the index array followed by 64 zero words. -/
def padRow (a : Nat) (hs : S2x600000.Slices ![a, 0] S1x600000) (I : IVec S2x600000 32) : IVec S600064 32 :=
  pad S600064 ![0] ![64] ![0] (shapeCast S600000 (extractStridedSlice S1x600000 ![a, 0] I hs) shapeCasts_S1x600000_S600000)
    (id (constantI S_ 32 0#32)) pads_S600000_S600064_0640 h_S_

/-- The index words with the table's extent added where negative, as a column. -/
def normCol (idx : IVec S600064 32) : IVec S600064x1 32 :=
  broadcastInDim S600064x1 ![0] bcast_S600064_S600064x1_0
    (select (cmpi .slt idx (broadcastInDim S600064 ![] bcast_S_S600064 (constantI S_ 32 0#32)))
      (addi idx (broadcastInDim S600064 ![] bcast_S_S600064 (constantI S_ 32 50000#32))) idx)

/-- The take of table rows by an index vector: the row the normalised word names where it lies in [0, 49999], the fill
    value elsewhere. -/
def takeFill (X : FVec Ideal S50000x128 .f32) (idx : IVec S600064 32) : FVec Ideal S600064x128 .f32 :=
  select
    (broadcastInDim S600064x128 ![0] bcast_S600064_S600064x128_0
      (Host.reduce IntOp.andi
        (andi (cmpi .sge (normCol idx) (broadcastInDim S600064x1 ![] bcast_S_S600064x1 (constantI S_ 32 0#32)))
          (cmpi .sle (normCol idx) (broadcastInDim S600064x1 ![0, 1] bcast_S1x1_S600064x1_0_1
            (broadcastInDim S1x1 ![1] bcast_S1_S1x1_1 (constantI S1 32 49999#32)))))
        (constantI S_ 1 1#1) reducesTo_S600064x1_S600064_d1 h_S_))
    (Host.gather gather_S50000x128_S600064x1_S600064x128_1_0_n_n_0_1_1128 X (normCol idx))
    (broadcastInDim S600064x128 ![] bcast_S_S600064x128 (constant (F := Ideal) S_ .f32 0x7FC00000#32))

/-! The typed references of the operations before the region name buffers whose declared type is literally the
    value's type, so writing a value through one and reading it back through one are both the identity. -/
theorem ofBuf_c (h1 h2 h3) (v : (⟨S_, .i32⟩ : BufTy).Contents (Elt Ideal)) :
    (TRef.of (sig := sig) (T := ⟨S_, .i32⟩) main_c h1 h2 h3).ofBuf v = v := rfl
theorem ofBuf_c_0 (h1 h2 h3) (v : (⟨S_, .i32⟩ : BufTy).Contents (Elt Ideal)) :
    (TRef.of (sig := sig) (T := ⟨S_, .i32⟩) main_c_0 h1 h2 h3).ofBuf v = v := rfl
theorem ofBuf_v1 (h1 h2 h3) (v : (⟨S600000, .i32⟩ : BufTy).Contents (Elt Ideal)) :
    (TRef.of (sig := sig) (T := ⟨S600000, .i32⟩) main_v1 h1 h2 h3).ofBuf v = v := rfl
theorem ofBuf_v3 (h1 h2 h3) (v : (⟨S600000, .i32⟩ : BufTy).Contents (Elt Ideal)) :
    (TRef.of (sig := sig) (T := ⟨S600000, .i32⟩) main_v3 h1 h2 h3).ofBuf v = v := rfl
theorem ofBuf_arg0 (h1 h2 h3) (v : (⟨S50000x128, .f32⟩ : BufTy).Contents (Elt Ideal)) :
    (TRef.of (sig := sig) (T := ⟨S50000x128, .f32⟩) main_arg0 h1 h2 h3).ofBuf v = v := rfl
theorem toBuf_v6 (h1 h2 h3) (v : (⟨S600064x128, .f32⟩ : BufTy).Contents (Elt Ideal)) :
    (TRef.of (sig := sig) (T := ⟨S600064x128, .f32⟩) main_v6 h1 h2 h3).toBuf v = v := rfl
theorem toBuf_v7 (h1 h2 h3) (v : (⟨S600064x128, .f32⟩ : BufTy).Contents (Elt Ideal)) :
    (TRef.of (sig := sig) (T := ⟨S600064x128, .f32⟩) main_v7 h1 h2 h3).toBuf v = v := rfl

/-- A select whose condition is the true bit is its first operand. -/
theorem select_of_one {α : Type} {c : BitVec 1} (h : c = 1#1) (x y : α) : Scalar.select c x y = x := by
  rw [h]; exact select_one x y

variable (m : (ℓ : Loc nD τ sig) → Buf (Elt Ideal) ℓ)

/-- The region's first input array: the rows taken by the padded source words. -/
theorem V_v6 (c : Dev nD) : (V m c main_v6 : S600064x128.Idx → EReal)
    = takeFill (m ((c : Thread nD τ).loc main_arg0)) (padRow 0 slices_S2x600000_S1x600000_0_0 (m ((c : Thread nD τ).loc main_arg1))) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  simp only [Cert.LibTypedRef.ofBuf_toBuf, ofBuf_c, ofBuf_v1, ofBuf_arg0, toBuf_v6]
  rfl

/-- The region's second input array: the rows taken by the padded target words. -/
theorem V_v7 (c : Dev nD) : (V m c main_v7 : S600064x128.Idx → EReal)
    = takeFill (m ((c : Thread nD τ).loc main_arg0)) (padRow 1 slices_S2x600000_S1x600000_1_0 (m ((c : Thread nD τ).loc main_arg1))) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  simp only [Cert.LibTypedRef.ofBuf_toBuf, ofBuf_c_0, ofBuf_v3, ofBuf_arg0, toBuf_v7]
  rfl

/-- The three weight matrices reach the region as launched (a change of format is the identity). -/
theorem V_v8 (c : Dev nD) : (V m c main_v8 : S128x257.Idx → EReal) = m ((c : Thread nD τ).loc main_arg2) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl
theorem V_v9 (c : Dev nD) : (V m c main_v9 : S128x128.Idx → EReal) = m ((c : Thread nD τ).loc main_arg4) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl
theorem V_v10 (c : Dev nD) : (V m c main_v10 : S1x128.Idx → EReal) = m ((c : Thread nD τ).loc main_arg6) := by
  dsimp only [V, V0]
  simp only [hostOps0, hostOps0_1, hostOps0_2, hostOps0_3, hostOps0_4, hostOps0_5, hostOps0_6, List.flatten_cons,
    List.flatten_nil, List.append_nil, List.cons_append, List.nil_append]
  after_results_simp
  rfl

/-- An entry of the padded row before the padding is the index array's entry. -/
theorem padRow_apply (a : Nat) (ha : a < 2) (hs : S2x600000.Slices ![a, 0] S1x600000) (I : IVec S2x600000 32)
    (e : Fin 600000) (he : e.val < 600064) :
    padRow a hs I (ix1 (⟨e.val, he⟩ : Fin 600064)) = I (ix2 (⟨a, ha⟩ : Fin 2) e) := by
  unfold padRow
  refine (pad_apply_of_inside _ _ _ _ _ _ _ (ix1 (⟨e.val, he⟩ : Fin 600064)) (ix1 e) ?_).trans ?_
  · intro ax
    match ax with
    | ⟨0, _⟩ => show e.val = 0 + e.val * (0 + 1); omega
  · refine (shapeCast_1a_a_apply _ _ e).trans ?_
    exact extractStridedSlice_apply _ _ _ _ (ix2 (⟨a, ha⟩ : Fin 2) e) (fun ax => match ax with
      | ⟨0, _⟩ => (rfl : a = a + 0)
      | ⟨1, _⟩ => (show e.val = 0 + e.val from (Nat.zero_add _).symm))

/-- An entry of the padded row in the padding is the zero word. -/
theorem padRow_tail (a : Nat) (hs : S2x600000.Slices ![a, 0] S1x600000) (I : IVec S2x600000 32)
    (e : Fin 600064) (he : 600000 ≤ e.val) : padRow a hs I (ix1 e) = 0#32 := by
  unfold padRow
  refine (pad_apply_of_not_inside _ _ _ _ _ _ _ (ix1 e) (0 : Fin 1) ?_).trans rfl
  intro hin
  have h3 : (e.val - 0) / (0 + 1) < 600000 := hin.2.2
  omega

/-- The normalised column at (e, ·) is the normalised word of entry e. -/
theorem normCol_apply (idx : IVec S600064 32) (e : Fin 600064) (u : Fin 1) :
    normCol idx (ix2 e u) = normWord (idx (ix1 e)) := by
  unfold normCol
  refine (broadcastInDim_apply _ _ _ (ix2 e u) (ix1 e) ?_).trans rfl
  intro ax
  match ax with
  | ⟨0, _⟩ => show e.val = if (600064 : Nat) = 1 then 0 else e.val; rw [if_neg (by decide)]

/-- WHERE EVERY WORD IS IN RANGE the taken array's entry (e, k) is the table's entry (row named by word e, k). -/
theorem takeFill_apply (X : FVec Ideal S50000x128 .f32) (idx : IVec S600064 32)
    (hall : ∀ e : Fin 600064, IntOp.cmpi .sge (normWord (idx (ix1 e))) 0#32 = 1#1
      ∧ IntOp.cmpi .sle (normWord (idx (ix1 e))) 49999#32 = 1#1)
    (e : Fin 600064) (k : Fin 128) :
    takeFill X idx (ix2 e k) = X (ix2 (rowOf (idx (ix1 e))) k) := by
  unfold takeFill
  rw [select_apply]
  refine (select_of_one ?_ _ _).trans ?_
  · refine (broadcastInDim_apply _ _ _ (ix2 e k) (ix1 e) ?_).trans ?_
    · intro ax
      match ax with
      | ⟨0, _⟩ => show e.val = if (600064 : Nat) = 1 then 0 else e.val; rw [if_neg (by decide)]
    · refine Cert.LibAllOnes.reduce_andi_ones _ _ _ _ _ (fun _ => rfl) (fun i => ?_)
      obtain ⟨p, q, rfl⟩ : ∃ (p : Fin 600064) (q : Fin 1), i = ix2 p q := ⟨i 0, i 1, eq_ix2 i⟩
      show IntOp.andi (IntOp.cmpi .sge (normCol idx (ix2 p q)) 0#32) (IntOp.cmpi .sle (normCol idx (ix2 p q)) 49999#32) = 1#1
      rw [normCol_apply, (hall p).1, (hall p).2]
      decide
  · refine (GatherRows.gather_col_apply (N := 50000) (B := 128) (R := 600064) (by decide) _ X (normCol idx) (ix2 e k)).trans ?_
    show X (ix2 (GatherRows.clampPos 50000 (by decide) (normCol idx (ix2 e (0 : Fin 1)))) k) = _
    rw [normCol_apply]
    rfl

end Cert.KernelHost

end
-- ==== Proof.PreDecode.lean ====
/-
  The precondition's statement about the index array, and what it gives the two range tests on a normalised word.

  The precondition ends by saying that every word w of the index array satisfies −50000 ≤ w < 50000 as a signed
  number: the conjunction, over every entry of the array, of the two comparisons is true, and a conjunction that is
  true is true at every entry. A word in that range is either not negative, and then it is below 50000 and left as it
  is by the normalisation, or negative, and then its unsigned value is within 50000 of 2³², so adding 50000 wraps
  around 2³² once and lands in [0, 50000); in both cases the normalised word is at least 0 and at most 49999 as a signed number.
-/
import proofs.«417165_j21345987461746_1_alg».proof.Pre_finite_inputs
import proofs.«417165_j21345987461746_1_alg».proof.Proof.Gen.Pre_finite_inputs
import proofs.«417165_j21345987461746_1_alg».proof.Proof.EdgeArgs
import proofs.«417165_j21345987461746_1_alg».proof.Proof.LibAllOnes
import Idealize.ShloMosaic.Lib.ReduceAll
import Idealize.ShloMosaic.Lib.StableHlo.Predicate
import Idealize.ShloMosaic.PureOps.Ideal

noncomputable section

namespace Cert.PreDecode

open Idealize.ShloMosaic Idealize.ShloMosaic.ValueIdx

/-- The scalar shape has one index. -/
instance : Subsingleton Cert.Pre_finite_inputs.S_.Idx := ⟨fun _ _ => funext fun d => d.elim0⟩

/-- Under the precondition every index word is at least -50000 and below 50000 as a signed number
    (4294917296 is the 32-bit word of -50000). The precondition's last conjunct is the conjunction over every entry
    of the index array of the two comparisons; it is true, so both comparisons are true at every entry. -/
theorem index_range (x0 : FVec Ideal Cert.Pre_finite_inputs.S50000x128 .f32) (x1 : IVec Cert.Pre_finite_inputs.S2x600000 32)
    (x2 : FVec Ideal Cert.Pre_finite_inputs.S128x257 .f32) (x3 : FVec Ideal Cert.Pre_finite_inputs.S128 .f32)
    (x4 : FVec Ideal Cert.Pre_finite_inputs.S128x128 .f32) (x5 : FVec Ideal Cert.Pre_finite_inputs.S128 .f32)
    (x6 : FVec Ideal Cert.Pre_finite_inputs.S1x128 .f32) (x7 : FVec Ideal Cert.Pre_finite_inputs.S1 .f32)
    (h : Cert.Pre_finite_inputs.fn (F := Ideal) x0 x1 x2 x3 x4 x5 x6 x7 = fun _ => 1#1)
    (a : Fin 2) (e : Fin 600000) :
    IntOp.cmpi .sge (x1 (ix2 a e)) 4294917296#32 = 1#1 ∧ IntOp.cmpi .slt (x1 (ix2 a e)) 50000#32 = 1#1 := by
  have hp := congrFun h ValueIdx.ix0
  unfold Cert.Pre_finite_inputs.fn Cert.Pre_finite_inputs.fn_part1 Cert.Pre_finite_inputs.fn_part2 at hp
  have hall := (IntOp.andi_eq_one.1 hp).2
  have hel := Host.reduce_andi_all _ _ _ _ _ hall (ix2 a e)
  exact IntOp.andi_eq_one.1 hel

open Idealize.ShloMosaic.StableHlo.Predicate in
/-- A word that is at least -50000 and below 50000 as a signed number is, as an unsigned number, either below 50000
    (when it is not negative) or within 50000 of 2³² (when it is negative). -/
theorem range_toNat (w : BitVec 32) (h1 : IntOp.cmpi .sge w 4294917296#32 = 1#1) (h2 : IntOp.cmpi .slt w 50000#32 = 1#1) :
    w.toNat < 50000 ∨ 2 ^ 32 - 50000 ≤ w.toNat := by
  unfold IntOp.cmpi at h1 h2
  rw [ofBool_eq_one_iff] at h1 h2
  simp only [BitVec.slt, BitVec.sle, decide_eq_true_eq] at h1 h2
  have c1 : (4294917296#32 : BitVec 32).toInt = -50000 := by decide
  have c2 : (50000#32 : BitVec 32).toInt = 50000 := by decide
  rw [c1] at h1
  rw [c2] at h2
  have h32 := w.isLt
  rw [BitVec.toInt_eq_toNat_cond] at h1 h2
  split at h1 <;> omega

open Idealize.ShloMosaic.StableHlo.Predicate in
/-- A word in that range, normalised (50000 added when negative), passes the two tests of the kernel's mask:
    it is at least 0 and at most 49999 as a signed number. -/
theorem mask_of_range (w : BitVec 32) (h1 : IntOp.cmpi .sge w 4294917296#32 = 1#1) (h2 : IntOp.cmpi .slt w 50000#32 = 1#1) :
    IntOp.cmpi .sge (Cert.EdgeArgs.normWord w) 0#32 = 1#1 ∧ IntOp.cmpi .sle (Cert.EdgeArgs.normWord w) 49999#32 = 1#1 := by
  have h32 := w.isLt
  unfold Cert.EdgeArgs.normWord
  rcases range_toNat w h1 h2 with hs | hb
  · -- not negative: the word is kept, and it is below 50000
    rw [Cert.LibAllOnes.slt_zero w (by omega), select_zero]
    exact ⟨Cert.LibAllOnes.sge_zero w (by omega), Cert.LibAllOnes.sle_ofNat w 49999 (by decide) (by omega)⟩
  · -- negative: 50000 is added, and the sum wraps once, landing in [0, 50000)
    have hneg : IntOp.cmpi .slt w 0#32 = 1#1 := by
      unfold IntOp.cmpi
      rw [ofBool_eq_one_iff]
      simp only [BitVec.slt, decide_eq_true_eq, BitVec.toInt_zero]
      rw [BitVec.toInt_eq_toNat_cond]
      split <;> omega
    have hn : (IntOp.addi w 50000#32).toNat = w.toNat + 50000 - 2 ^ 32 := by
      unfold IntOp.addi
      rw [BitVec.toNat_add]
      have : (50000#32 : BitVec 32).toNat = 50000 := by decide
      rw [this]
      omega
    rw [hneg, select_one]
    exact ⟨Cert.LibAllOnes.sge_zero _ (by omega), Cert.LibAllOnes.sle_ofNat _ 49999 (by decide) (by omega)⟩

end Cert.PreDecode

end
-- ==== Proof.KernelRun.lean ====
/-
  The kernel program's run, read: its two results as functions of the argument arrays.

  After the region the program keeps the first 600000 entries of the gate vector and of the logit vector. Under the
  precondition every index word is in range, so the mask of each take is one everywhere and the gathered arrays'
  row e (for an edge e below 600000, where the padded index vector is the index array's row) is the table row that
  edge e's word names; the weight arrays reach the region as launched. So result entry e is the network's logit
  (EdgeArgs.edgeLogit), respectively its gate, of edge e from the argument arrays, and the arguments end unchanged.
-/
import proofs.«417165_j21345987461746_1_alg».proof.Defs
import proofs.«417165_j21345987461746_1_alg».proof.Proof.KernelBlocks
import proofs.«417165_j21345987461746_1_alg».proof.Proof.KernelHost
import proofs.«417165_j21345987461746_1_alg».proof.Proof.PreDecode
import Idealize.ShloMosaic.Lib.StableHlo.Run

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelRun

open Cert.KernelIdeal Cert.KernelIdeal.Gen Cert.EdgeSpec Cert.EdgeArgs Cert.KernelBlocks Cert.KernelHost

variable (m : (ℓ : Loc nD τ sig) → Buf (Elt Ideal) ℓ) (ρ : Dev nD → PrngReg)

/-- Edge e's logit from the launch contents of the arguments on core c. -/
def logitsOf (c : Dev nD) : FVec Ideal S600000 .f32 := fun i =>
  edgeLogit (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7)) ⟨(i 0).val, (i 0).isLt⟩

/-- Edge e's gate from the launch contents of the arguments on core c. -/
def gatesOf (c : Dev nD) : FVec Ideal S600000 .f32 := fun i => gate (logitsOf m c i)

/-! ## After the region: the first 600000 entries of each vector -/

theorem tail12 (c : Dev nD) : Pipeline.afterTail₀ cfgs (dats m) 0 (V0 m) [hostOps1] c main_v12
    = extractStridedSlice S600000 ![0] (regionGates m c) slices_S600064_S600000_0 := by
  unfold Pipeline.afterTail₀
  show StableHlo.after hostOps1 _ (Proc.devRef .tc main_v12) = _
  after_results
  refine congrArg (fun x : S600064.Idx → EReal => extractStridedSlice S600000 ![0] x slices_S600064_S600000_0) ?_
  exact (Pipeline.withArrays_arr spec0 launch0.win.arr_inj c _ _ 8).trans (final8 m c)

theorem tail13 (c : Dev nD) : Pipeline.afterTail₀ cfgs (dats m) 0 (V0 m) [hostOps1] c main_v13
    = extractStridedSlice S600000 ![0] (regionLogits m c) slices_S600064_S600000_0 := by
  unfold Pipeline.afterTail₀
  show StableHlo.after hostOps1 _ (Proc.devRef .tc main_v13) = _
  after_results
  refine congrArg (fun x : S600064.Idx → EReal => extractStridedSlice S600000 ![0] x slices_S600064_S600000_0) ?_
  exact (Pipeline.withArrays_arr spec0 launch0.win.arr_inj c _ _ 9).trans (final9 m c)

/-! ## Under the precondition -/

/-- Every word of a padded row passes the take's two range tests: an index word by the precondition, a padding zero
    by computation. -/
theorem pad_in_range (hpre : Cert.Pre_KernelIdeal m) (c : Dev nD) (a : Nat) (ha : a < 2)
    (hs : S2x600000.Slices ![a, 0] S1x600000) (e : Fin 600064) :
    IntOp.cmpi .sge (normWord (padRow a hs (m ((c.tc : Thread nD τ).loc main_arg1)) (ix1 e))) 0#32 = 1#1
      ∧ IntOp.cmpi .sle (normWord (padRow a hs (m ((c.tc : Thread nD τ).loc main_arg1)) (ix1 e))) 49999#32 = 1#1 := by
  by_cases he : e.val < 600000
  · have h : padRow a hs (m ((c.tc : Thread nD τ).loc main_arg1)) (ix1 e)
        = (m ((c.tc : Thread nD τ).loc main_arg1) : S2x600000.Idx → BitVec 32) (ix2 (⟨a, ha⟩ : Fin 2) (⟨e.val, he⟩ : Fin 600000)) :=
      padRow_apply a ha hs _ ⟨e.val, he⟩ e.isLt
    rw [h]
    have hr := Cert.PreDecode.index_range _ _ _ _ _ _ _ _ (hpre c) (⟨a, ha⟩ : Fin 2) (⟨e.val, he⟩ : Fin 600000)
    exact Cert.PreDecode.mask_of_range _ hr.1 hr.2
  · rw [padRow_tail a hs _ e (by omega)]
    exact ⟨by decide, by decide⟩

/-- Row e of the first gathered array, for an edge e: the table row the edge's source word names. -/
theorem row_src (hpre : Cert.Pre_KernelIdeal m) (c : Dev nD) (e : Fin 600000) (he : e.val < 600064) :
    rowAt (V m c main_v6 : S600064x128.Idx → EReal) ⟨e.val, he⟩
      = rowAt (m ((c.tc : Thread nD τ).loc main_arg0) : S50000x128.Idx → EReal)
          (rowOf ((m ((c.tc : Thread nD τ).loc main_arg1) : S2x600000.Idx → BitVec 32) (ix2 (0 : Fin 2) e))) := by
  funext k
  show (V m c main_v6 : S600064x128.Idx → EReal) (ix2 (⟨e.val, he⟩ : Fin 600064) k) = _
  rw [V_v6 m c, takeFill_apply _ _ (pad_in_range m hpre c 0 (by decide) _) ⟨e.val, he⟩ k,
    padRow_apply 0 (by decide) _ _ e he]
  rfl

/-- Row e of the second gathered array: the table row the edge's target word names. -/
theorem row_tgt (hpre : Cert.Pre_KernelIdeal m) (c : Dev nD) (e : Fin 600000) (he : e.val < 600064) :
    rowAt (V m c main_v7 : S600064x128.Idx → EReal) ⟨e.val, he⟩
      = rowAt (m ((c.tc : Thread nD τ).loc main_arg0) : S50000x128.Idx → EReal)
          (rowOf ((m ((c.tc : Thread nD τ).loc main_arg1) : S2x600000.Idx → BitVec 32) (ix2 (1 : Fin 2) e))) := by
  funext k
  show (V m c main_v7 : S600064x128.Idx → EReal) (ix2 (⟨e.val, he⟩ : Fin 600064) k) = _
  rw [V_v7 m c, takeFill_apply _ _ (pad_in_range m hpre c 1 (by decide) _) ⟨e.val, he⟩ k,
    padRow_apply 1 (by decide) _ _ e he]
  rfl

/-- The first 600000 entries of the logit vector are the edges' logits from the argument arrays. -/
theorem slice_logits (hpre : Cert.Pre_KernelIdeal m) (c : Dev nD) :
    extractStridedSlice S600000 ![0] (regionLogits m c) slices_S600064_S600000_0 = logitsOf m c := by
  funext i
  have hi : (i 0).val < 600000 := (i 0).isLt
  refine (extractStridedSlice_apply _ _ _ i (ix1 (⟨(i 0).val, by omega⟩ : Fin 600064)) (fun a => match a with
    | ⟨0, _⟩ => (Nat.zero_add _).symm)).trans ?_
  show rowsLogit (V m c main_v8) (V m c main_arg3) (V m c main_v9) (V m c main_arg5) (V m c main_v10) (V m c main_arg7)
      (rowAt (V m c main_v6 : S600064x128.Idx → EReal) ⟨(i 0).val, by omega⟩)
      (rowAt (V m c main_v7 : S600064x128.Idx → EReal) ⟨(i 0).val, by omega⟩) = _
  rw [row_src m hpre c ⟨(i 0).val, hi⟩ (by omega), row_tgt m hpre c ⟨(i 0).val, hi⟩ (by omega),
    V_v8 m c, V_v9 m c, V_v10 m c, V_main_arg3 m c, V_main_arg5 m c, V_main_arg7 m c]
  rfl

/-- The first 600000 entries of the gate vector are the edges' gates. -/
theorem slice_gates (hpre : Cert.Pre_KernelIdeal m) (c : Dev nD) :
    extractStridedSlice S600000 ![0] (regionGates m c) slices_S600064_S600000_0 = gatesOf m c := by
  funext i
  have h := congrFun (slice_logits m hpre c) i
  have hi : (i 0).val < 600000 := (i 0).isLt
  refine (extractStridedSlice_apply _ _ _ i (ix1 (⟨(i 0).val, by omega⟩ : Fin 600064)) (fun a => match a with
    | ⟨0, _⟩ => (Nat.zero_add _).symm)).trans ?_
  rw [extractStridedSlice_apply _ _ _ i (ix1 (⟨(i 0).val, by omega⟩ : Fin 600064)) (fun a => match a with
    | ⟨0, _⟩ => (Nat.zero_add _).symm)] at h
  show gate (regionLogits m c (ix1 (⟨(i 0).val, by omega⟩ : Fin 600064))) = gate (logitsOf m c i)
  rw [h]

/-! ## The run -/

/-- Under the precondition every weakly fair execution of the kernel program terminates with its first result at the
    edges' gates, its second at the edges' logits, and the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v12) = gatesOf m c
      ∧ r.2.mem ((c.tc : Thread nD τ).loc main_v13) = logitsOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(((h c).2 main_v12 (Pipeline.mem_restRefs_of main_v12 (by decide) (by decide))).trans (tail12 m c)).trans (slice_gates m hpre c),
      (((h c).2 main_v13 (Pipeline.mem_restRefs_of main_v13 (by decide) (by decide))).trans (tail13 m c)).trans (slice_logits m hpre c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c)))⟩)
    (run_main m ρ)

end Cert.KernelRun

end
-- ==== Proof.RefValue.lean ====
/-
  The reference program's logit and gate of one edge, read entry by entry.

  The reference normalises every row of the node table (each row divided by its Euclidean length plus a small
  constant), takes for each edge the normalised rows its source and target index words name (a negative word has the
  table's extent added; the word is then read signed and clamped into the table), forms the edge's 257 features (the
  two rows, then the Euclidean distance between them), and runs the three-layer perceptron on them. Each stage of
  that computation is read here at explicit coordinates: the normalised table at (r, k), the two index columns at
  (e, 0), the two gathered arrays at (e, k), the distance column at (e, 0), the features at (e, j), the two hidden
  layers at (e, i), and last the logit at e, which is the network's logit on the two raw table rows; the gate at e is
  the clipped, stretched sigmoid of that logit. Sums start from the word of zero, which is the extended real zero; the
  sigmoid is spelled 1 / (1 + exp(−x)) with the word of one, which is the extended real one.
-/
import proofs.«417165_j21345987461746_1_alg».proof.Proof.Gen.ReferenceIdeal.Read
import proofs.«417165_j21345987461746_1_alg».proof.Proof.EdgeArgs
import proofs.«417165_j21345987461746_1_alg».proof.Proof.LibColumns
import proofs.«417165_j21345987461746_1_alg».proof.Proof.LibGatherRows
import Idealize.ShloMosaic.Lib.IdealHost
import Idealize.ShloMosaic.PureOps.Ideal.Laws

noncomputable section

open scoped BigOperators

namespace Cert.RefValue

open Idealize.ShloMosaic Idealize.ShloMosaic.ValueIdx Cert.ReferenceIdeal Cert.ReferenceIdeal.Read

/-- The normalised table at (r, k): row r of the table divided by its length plus the small constant. -/
theorem v4_at (x0 : (⟨S50000x128, .f32⟩ : BufTy).Contents (Elt Ideal)) (r : Fin 50000) (k : Fin 128) :
    val_main_v4 (F := Ideal) x0 (ix2 r k) = EdgeSpec.unitRow (EdgeArgs.rowAt x0 r) k := by
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, Ideal.hostDivf_def, Ideal.addf_def, Ideal.hostUnary_sqrt_def, Ideal.mulf_def,
    Ideal.ofBits_def, Ideal.ofBits_zero_f32, zero_add]
  have hi : ∀ j : Fin 128, idx_main_call0_v1 (idx_main_call0_v2 (idx_main_v3 (ix2 r k))) j = ix2 r j := fun j =>
    funext fun a => by match a with | ⟨0, _⟩ => rfl | ⟨1, _⟩ => rfl
  simp only [hi]
  rfl

/-- The column of source indices at (e, 0): edge e's source word, with the extent added when negative. -/
theorem v14_at (x1 : (⟨S2x600000, .i32⟩ : BufTy).Contents (Elt Ideal)) (e : Fin 600000) (u : Fin 1) :
    val_main_v14 (F := Ideal) x1 (ix2 e u) = EdgeArgs.normWord (x1 (ix2 (0 : Fin 2) e)) := by
  rw [val_main_v14_apply, val_main_v13_apply, val_main_v10_apply, val_main_v12_apply, val_main_v6_apply, val_main_v5_apply,
    val_main_v9_apply, val_main_c_apply, val_main_v11_apply, val_main_c_0_apply]
  have hi : idx_main_v5 (idx_main_v6 (idx_main_v14 (ix2 e u))) = ix2 (0 : Fin 2) e := funext fun a => Fin.ext (by
    match a with
    | ⟨0, _⟩ => rfl
    | ⟨1, _⟩ => exact Nat.mod_eq_of_lt e.isLt)
  rw [hi]
  rfl

/-- The column of target indices at (e, 0): edge e's target word, with the extent added when negative. -/
theorem v21_at (x1 : (⟨S2x600000, .i32⟩ : BufTy).Contents (Elt Ideal)) (e : Fin 600000) (u : Fin 1) :
    val_main_v21 (F := Ideal) x1 (ix2 e u) = EdgeArgs.normWord (x1 (ix2 (1 : Fin 2) e)) := by
  rw [val_main_v21_apply, val_main_v20_apply, val_main_v17_apply, val_main_v19_apply, val_main_v8_apply, val_main_v7_apply,
    val_main_v16_apply, val_main_c_1_apply, val_main_v18_apply, val_main_c_2_apply]
  have hi : idx_main_v7 (idx_main_v8 (idx_main_v21 (ix2 e u))) = ix2 (1 : Fin 2) e := funext fun a => Fin.ext (by
    match a with
    | ⟨0, _⟩ => rfl
    | ⟨1, _⟩ => exact Nat.mod_eq_of_lt e.isLt)
  rw [hi]
  rfl

/-- The gathered source rows at (e, k): the normalised row the source word of edge e names. -/
theorem v15_at (x0 : (⟨S50000x128, .f32⟩ : BufTy).Contents (Elt Ideal)) (x1 : (⟨S2x600000, .i32⟩ : BufTy).Contents (Elt Ideal))
    (e : Fin 600000) (k : Fin 128) :
    val_main_v15 (F := Ideal) x0 x1 (ix2 e k)
      = EdgeSpec.unitRow (EdgeArgs.rowAt x0 (EdgeArgs.rowOf (x1 (ix2 (0 : Fin 2) e)))) k := by
  unfold val_main_v15
  refine (GatherRows.gather_col_apply (N := 50000) (B := 128) (R := 600000) (by decide) _ (val_main_v4 (F := Ideal) x0)
    (val_main_v14 (F := Ideal) x1) (ix2 e k)).trans ?_
  show val_main_v4 (F := Ideal) x0 (ix2 (GatherRows.clampPos 50000 (by decide) (val_main_v14 (F := Ideal) x1 (ix2 e (0 : Fin 1)))) k) = _
  rw [v14_at, v4_at]
  rfl

/-- The gathered target rows at (e, k): the normalised row the target word of edge e names. -/
theorem v22_at (x0 : (⟨S50000x128, .f32⟩ : BufTy).Contents (Elt Ideal)) (x1 : (⟨S2x600000, .i32⟩ : BufTy).Contents (Elt Ideal))
    (e : Fin 600000) (k : Fin 128) :
    val_main_v22 (F := Ideal) x0 x1 (ix2 e k)
      = EdgeSpec.unitRow (EdgeArgs.rowAt x0 (EdgeArgs.rowOf (x1 (ix2 (1 : Fin 2) e)))) k := by
  unfold val_main_v22
  refine (GatherRows.gather_col_apply (N := 50000) (B := 128) (R := 600000) (by decide) _ (val_main_v4 (F := Ideal) x0)
    (val_main_v21 (F := Ideal) x1) (ix2 e k)).trans ?_
  show val_main_v4 (F := Ideal) x0 (ix2 (GatherRows.clampPos 50000 (by decide) (val_main_v21 (F := Ideal) x1 (ix2 e (0 : Fin 1)))) k) = _
  rw [v21_at, v4_at]
  rfl

/-- The distance column at (e, 0): the Euclidean distance between edge e's two normalised rows. -/
theorem v25_at (x0 : (⟨S50000x128, .f32⟩ : BufTy).Contents (Elt Ideal)) (x1 : (⟨S2x600000, .i32⟩ : BufTy).Contents (Elt Ideal))
    (e : Fin 600000) (u : Fin 1) :
    val_main_v25 (F := Ideal) x0 x1 (ix2 e u)
      = EdgeSpec.rowGap (EdgeArgs.rowAt x0 (EdgeArgs.rowOf (x1 (ix2 (0 : Fin 2) e))))
          (EdgeArgs.rowAt x0 (EdgeArgs.rowOf (x1 (ix2 (1 : Fin 2) e)))) := by
  rw [val_main_v25_apply, val_main_v24_apply, val_main_call1_v1_apply, val_main_call1_cst_apply]
  simp only [val_main_call1_v0_apply, val_main_v23_apply, Ideal.hostUnary_sqrt_def, Ideal.mulf_def, Ideal.subf_def,
    Ideal.ofBits_def, Ideal.ofBits_zero_f32, zero_add]
  have hi : ∀ j : Fin 128, idx_main_call1_v1 (idx_main_v25 (ix2 e u)) j = ix2 e j := fun j =>
    funext fun a => by match a with | ⟨0, _⟩ => rfl | ⟨1, _⟩ => rfl
  simp only [hi, v15_at, v22_at]
  rfl

/-- The edge features at (e, j): the two normalised rows of edge e followed by their distance. -/
theorem v26_at (x0 : (⟨S50000x128, .f32⟩ : BufTy).Contents (Elt Ideal)) (x1 : (⟨S2x600000, .i32⟩ : BufTy).Contents (Elt Ideal))
    (e : Fin 600000) (j : Fin 257) :
    val_main_v26 (F := Ideal) x0 x1 (ix2 e j)
      = EdgeSpec.feat (EdgeArgs.rowAt x0 (EdgeArgs.rowOf (x1 (ix2 (0 : Fin 2) e))))
          (EdgeArgs.rowAt x0 (EdgeArgs.rowOf (x1 (ix2 (1 : Fin 2) e)))) j := by
  unfold val_main_v26
  refine (LibColumns.concat3_apply (n := 600000) (w₁ := 128) (w₂ := 128) (w₃ := 1) (w := 257)
    (val_main_v15 (F := Ideal) x0 x1) (val_main_v22 (F := Ideal) x0 x1) (val_main_v25 (F := Ideal) x0 x1) _ rfl e j).trans ?_
  unfold EdgeSpec.feat
  by_cases h1 : j.val < 128
  · rw [dif_pos h1, dif_pos h1, v15_at]
  · rw [dif_neg h1, dif_neg h1]
    by_cases h2 : j.val < 128 + 128
    · rw [dif_pos h2, dif_pos h2, v22_at]
    · rw [dif_neg h2, dif_neg h2, v25_at]

/-- The first layer at (e, i): hidden unit i of edge e. -/
theorem v32_at (x0 : (⟨S50000x128, .f32⟩ : BufTy).Contents (Elt Ideal)) (x1 : (⟨S2x600000, .i32⟩ : BufTy).Contents (Elt Ideal))
    (x2 : (⟨S128x257, .f32⟩ : BufTy).Contents (Elt Ideal)) (x3 : (⟨S128, .f32⟩ : BufTy).Contents (Elt Ideal))
    (e : Fin 600000) (i : Fin 128) :
    val_main_v32 (F := Ideal) x0 x1 x2 x3 (ix2 e i)
      = EdgeSpec.hidden1 (EdgeArgs.mat x2) (EdgeArgs.vec x3) (EdgeArgs.rowAt x0 (EdgeArgs.rowOf (x1 (ix2 (0 : Fin 2) e))))
          (EdgeArgs.rowAt x0 (EdgeArgs.rowOf (x1 (ix2 (1 : Fin 2) e)))) i := by
  rw [val_main_v32_apply, val_main_v31_apply, val_main_v28_apply, val_main_v30_apply, val_main_v29_apply,
    val_main_call2_v0_apply, val_main_call2_cst_apply]
  simp only [val_main_v27_apply, Ideal.maximumf_def, Ideal.addf_def, Ideal.ofBits_def]
  have hl : ∀ k : Fin 257, lidx_main_v28 (ix2 e i) k = ix2 e k := fun k =>
    funext fun a => by match a with | ⟨0, _⟩ => rfl | ⟨1, _⟩ => rfl
  have hr : ∀ k : Fin 257, idx_main_v27 (ridx_main_v28 (ix2 e i) k) = ix2 i k := fun k =>
    funext fun a => by match a with | ⟨0, _⟩ => rfl | ⟨1, _⟩ => rfl
  have hb : idx_main_v29 (idx_main_v30 (ix2 e i)) = ix1 i :=
    funext fun a => by match a with | ⟨0, _⟩ => rfl
  simp only [hl, hr, hb, v26_at]
  rfl

/-- The second layer before its bias at (e, j). -/
theorem v34_at (x0 : (⟨S50000x128, .f32⟩ : BufTy).Contents (Elt Ideal)) (x1 : (⟨S2x600000, .i32⟩ : BufTy).Contents (Elt Ideal))
    (x2 : (⟨S128x257, .f32⟩ : BufTy).Contents (Elt Ideal)) (x3 : (⟨S128, .f32⟩ : BufTy).Contents (Elt Ideal))
    (x4 : (⟨S128x128, .f32⟩ : BufTy).Contents (Elt Ideal)) (e : Fin 600000) (j : Fin 128) :
    val_main_v34 (F := Ideal) x0 x1 x2 x3 x4 (ix2 e j)
      = EdgeSpec.pre2 (EdgeArgs.mat x2) (EdgeArgs.vec x3) (EdgeArgs.mat x4)
          (EdgeArgs.rowAt x0 (EdgeArgs.rowOf (x1 (ix2 (0 : Fin 2) e))))
          (EdgeArgs.rowAt x0 (EdgeArgs.rowOf (x1 (ix2 (1 : Fin 2) e)))) j := by
  rw [val_main_v34_apply]
  simp only [val_main_v33_apply]
  have hl : ∀ k : Fin 128, lidx_main_v34 (ix2 e j) k = ix2 e k := fun k =>
    funext fun a => by match a with | ⟨0, _⟩ => rfl | ⟨1, _⟩ => rfl
  have hr : ∀ k : Fin 128, idx_main_v33 (ridx_main_v34 (ix2 e j) k) = ix2 j k := fun k =>
    funext fun a => by match a with | ⟨0, _⟩ => rfl | ⟨1, _⟩ => rfl
  simp only [hl, hr, v32_at]
  rfl

/-- The second layer at (e, j): its bias added and max(·, 0) taken. -/
theorem v38_at (x0 : (⟨S50000x128, .f32⟩ : BufTy).Contents (Elt Ideal)) (x1 : (⟨S2x600000, .i32⟩ : BufTy).Contents (Elt Ideal))
    (x2 : (⟨S128x257, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (e : Fin 600000) (j : Fin 128) :
    val_main_v38 (F := Ideal) x0 x1 x2 x3 x4 x5 (ix2 e j)
      = max (EdgeSpec.pre2 (EdgeArgs.mat x2) (EdgeArgs.vec x3) (EdgeArgs.mat x4)
          (EdgeArgs.rowAt x0 (EdgeArgs.rowOf (x1 (ix2 (0 : Fin 2) e))))
          (EdgeArgs.rowAt x0 (EdgeArgs.rowOf (x1 (ix2 (1 : Fin 2) e)))) j + EdgeArgs.vec x5 j)
          (Ideal.ofBits .f32 0x00000000#32) := by
  rw [val_main_v38_apply, val_main_v37_apply, val_main_v36_apply, val_main_v35_apply, val_main_call3_v0_apply,
    val_main_call3_cst_apply, v34_at]
  have hb : idx_main_v35 (idx_main_v36 (ix2 e j)) = ix1 j :=
    funext fun a => by match a with | ⟨0, _⟩ => rfl
  rw [hb]
  rfl

/-- The reference's logit of edge e is the network's logit on the two table rows the edge's index words name. -/
theorem ref_logit (x0 : (⟨S50000x128, .f32⟩ : BufTy).Contents (Elt Ideal)) (x1 : (⟨S2x600000, .i32⟩ : BufTy).Contents (Elt Ideal))
    (x2 : (⟨S128x257, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S1x128, .f32⟩ : BufTy).Contents (Elt Ideal)) (x7 : (⟨S1, .f32⟩ : BufTy).Contents (Elt Ideal)) (e : Fin 600000) :
    val_main_v44 (F := Ideal) x0 x1 x2 x3 x4 x5 x6 x7 (ix1 e) = Cert.EdgeArgs.edgeLogit x0 x1 x2 x3 x4 x5 x6 x7 e := by
  have h44 : idx_main_v44 (ix1 e) = ix2 e (0 : Fin 1) := funext fun a => Fin.ext (by
    match a with
    | ⟨0, _⟩ => exact Nat.div_one _
    | ⟨1, _⟩ => rfl)
  rw [val_main_v44_apply, h44, val_main_v43_apply, val_main_v40_apply, val_main_v42_apply, val_main_v41_apply]
  simp only [val_main_v39_apply, Ideal.addf_def]
  have hl : ∀ k : Fin 128, lidx_main_v40 (ix2 e (0 : Fin 1)) k = ix2 e k := fun k =>
    funext fun a => by match a with | ⟨0, _⟩ => rfl | ⟨1, _⟩ => rfl
  have hr : ∀ k : Fin 128, idx_main_v39 (ridx_main_v40 (ix2 e (0 : Fin 1)) k) = ix2 (0 : Fin 1) k := fun k =>
    funext fun a => by match a with | ⟨0, _⟩ => rfl | ⟨1, _⟩ => rfl
  have hb : idx_main_v41 (idx_main_v42 (ix2 e (0 : Fin 1))) = ix1 (0 : Fin 1) :=
    funext fun a => by match a with | ⟨0, _⟩ => rfl
  simp only [hl, hr, hb, v38_at]
  rfl

/-- The reference's gate of edge e is the clipped, stretched sigmoid of that logit. -/
theorem ref_gate (x0 : (⟨S50000x128, .f32⟩ : BufTy).Contents (Elt Ideal)) (x1 : (⟨S2x600000, .i32⟩ : BufTy).Contents (Elt Ideal))
    (x2 : (⟨S128x257, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S1x128, .f32⟩ : BufTy).Contents (Elt Ideal)) (x7 : (⟨S1, .f32⟩ : BufTy).Contents (Elt Ideal)) (e : Fin 600000) :
    val_main_v55 (F := Ideal) x0 x1 x2 x3 x4 x5 x6 x7 (ix1 e)
      = Cert.EdgeSpec.gate (Cert.EdgeArgs.edgeLogit x0 x1 x2 x3 x4 x5 x6 x7 e) := by
  rw [val_main_v55_apply, val_main_call4_v4_apply, val_main_call4_v3_apply, val_main_cst_8_apply,
    val_main_call4_v2_apply, val_main_call4_v1_apply, val_main_call4_v0_apply, val_main_cst_7_apply,
    val_main_v54_apply, val_main_v53_apply, val_main_cst_6_apply, val_main_v52_apply, val_main_v51_apply,
    val_main_cst_5_apply, val_main_v50_apply, val_main_v49_apply, val_main_cst_4_apply, val_main_v48_apply,
    val_main_v47_apply, val_main_cst_3_apply, val_main_v46_apply, val_main_v45_apply, ref_logit]
  unfold EdgeSpec.gate Ideal.logistic
  simp only [Ideal.minimumf_def, Ideal.maximumf_def, Ideal.addf_def, Ideal.mulf_def, Ideal.hostDivf_def,
    Ideal.hostUnary_exp_def, Ideal.hostNegf_def, Ideal.negf_def, Ideal.ofBits_def, Ideal.ofBits_one_f32]

end Cert.RefValue

end
-- ==== Proof.lean ====
/-
  The certificate of the edge-scoring kernel against its jnp reference, over the extended reals.

  Both programs score the 600000 edges of a graph whose 50000 nodes carry 128 features. For an edge with source node s
  and target node t, each of the two feature rows is divided by its Euclidean length plus a small constant, the edge's
  257 features are the two normalised rows and the Euclidean distance between them, a perceptron of three layers
  gives the edge's logit, and the gate is the logit's sigmoid stretched by 1.2, shifted by −0.1 and clipped to [0, 1]
  (EdgeSpec). The reference normalises the whole table first and then gathers the rows the index words name; the
  kernel gathers the raw rows first (padding the edge axis by 64 zeros to whole blocks of 2048) and normalises each
  gathered row inside its body, block by block. Normalising a row depends on that row alone, so the two orders give
  the same rows; the kernel's products accumulate from zero where the reference's are plain products, its changes of
  float format are the identity on the extended reals, and its sigmoid is the reference's 1 / (1 + exp(−x)).

  The two gathers read an index word alike (a negative word has 50000 added, then the word is read signed and clamped
  into the table) except that the kernel's take replaces a row by a fill value where the word, once normalised, is
  outside [0, 49999]. The precondition keeps every index word in [−50000, 50000), NumPy's range for an axis of extent
  50000, where the take's mask is one everywhere; this is the one place the precondition is used.

  So on edge e both programs end with the logit EdgeArgs.edgeLogit of the argument arrays and its gate: the reference
  by reading its stages entry by entry (RefValue), the kernel by reading its body's arithmetic at a row
  (KernelPayload), its blocks as restrictions of one function of the region's input arrays (KernelBlocks), and those
  input arrays as functions of the arguments (KernelHost, PreDecode, KernelRun). The frames of the two kernel programs
  are the generated ones; the reference's is its run with the results dropped; no operation was rewritten by the
  idealization, so there is nothing to preserve.
-/
import proofs.«417165_j21345987461746_1_alg».proof.Defs
import proofs.«417165_j21345987461746_1_alg».proof.Proof.Gen.Kernel
import proofs.«417165_j21345987461746_1_alg».proof.Proof.Gen.Kernel.Skeleton
import proofs.«417165_j21345987461746_1_alg».proof.Proof.Gen.Kernel.Launch
import proofs.«417165_j21345987461746_1_alg».proof.Proof.Gen.Kernel.Points
import proofs.«417165_j21345987461746_1_alg».proof.Proof.Gen.Kernel.Frame
import proofs.«417165_j21345987461746_1_alg».proof.Proof.Gen.KernelIdeal
import proofs.«417165_j21345987461746_1_alg».proof.Proof.Gen.KernelIdeal.Skeleton
import proofs.«417165_j21345987461746_1_alg».proof.Proof.Gen.KernelIdeal.Launch
import proofs.«417165_j21345987461746_1_alg».proof.Proof.Gen.KernelIdeal.Points
import proofs.«417165_j21345987461746_1_alg».proof.Proof.Gen.KernelIdeal.Frame
import proofs.«417165_j21345987461746_1_alg».proof.Proof.Gen.ReferenceIdeal
import proofs.«417165_j21345987461746_1_alg».proof.Proof.Gen.ReferenceIdeal.Run
import proofs.«417165_j21345987461746_1_alg».proof.Proof.Gen.ReferenceIdeal.Read
import proofs.«417165_j21345987461746_1_alg».proof.Proof.Gen.Pre_finite_inputs
import proofs.«417165_j21345987461746_1_alg».proof.Proof.KernelRun
import proofs.«417165_j21345987461746_1_alg».proof.Proof.RefValue
import Idealize.ShloMosaic.Adequacy
import Idealize.ShloMosaic.Init

noncomputable section

namespace Cert.Proof

open Idealize.ShloMosaic Idealize.ShloMosaic.ValueIdx Idealize.SL.Sem

/-- The word-level kernel program runs and keeps its arguments: the generated frame. -/
theorem frame_k : Cert.frame_Kernel := fun m ρ _ => Cert.Kernel.Gen.frame m ρ

/-- The idealized kernel program runs and keeps its arguments: the generated frame. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The reference's gate of edge e, from arguments that agree with the kernel's, is the kernel's. -/
theorem ref_gates_eq (m : (ℓ : Loc Cert.KernelIdeal.nD Cert.KernelIdeal.τ Cert.KernelIdeal.sig) → Buf (Elt Ideal) ℓ)
    (c : Dev Cert.KernelIdeal.nD)
    (x0 : (⟨Cert.ReferenceIdeal.S50000x128, .f32⟩ : BufTy).Contents (Elt Ideal))
    (x1 : (⟨Cert.ReferenceIdeal.S2x600000, .i32⟩ : BufTy).Contents (Elt Ideal))
    (x2 : (⟨Cert.ReferenceIdeal.S128x257, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal))
    (x5 : (⟨Cert.ReferenceIdeal.S128, .f32⟩ : BufTy).Contents (Elt Ideal))
    (x6 : (⟨Cert.ReferenceIdeal.S1x128, .f32⟩ : BufTy).Contents (Elt Ideal))
    (x7 : (⟨Cert.ReferenceIdeal.S1, .f32⟩ : BufTy).Contents (Elt Ideal))
    (h0 : x0 = m ((c.tc : Thread Cert.KernelIdeal.nD Cert.KernelIdeal.τ).loc Cert.KernelIdeal.main_arg0))
    (h1 : x1 = m ((c.tc : Thread Cert.KernelIdeal.nD Cert.KernelIdeal.τ).loc Cert.KernelIdeal.main_arg1))
    (h2 : x2 = m ((c.tc : Thread Cert.KernelIdeal.nD Cert.KernelIdeal.τ).loc Cert.KernelIdeal.main_arg2))
    (h3 : x3 = m ((c.tc : Thread Cert.KernelIdeal.nD Cert.KernelIdeal.τ).loc Cert.KernelIdeal.main_arg3))
    (h4 : x4 = m ((c.tc : Thread Cert.KernelIdeal.nD Cert.KernelIdeal.τ).loc Cert.KernelIdeal.main_arg4))
    (h5 : x5 = m ((c.tc : Thread Cert.KernelIdeal.nD Cert.KernelIdeal.τ).loc Cert.KernelIdeal.main_arg5))
    (h6 : x6 = m ((c.tc : Thread Cert.KernelIdeal.nD Cert.KernelIdeal.τ).loc Cert.KernelIdeal.main_arg6))
    (h7 : x7 = m ((c.tc : Thread Cert.KernelIdeal.nD Cert.KernelIdeal.τ).loc Cert.KernelIdeal.main_arg7)) :
    (Cert.ReferenceIdeal.Read.val_main_v55 (F := Ideal) x0 x1 x2 x3 x4 x5 x6 x7 : Cert.ReferenceIdeal.S600000.Idx → EReal)
        = Cert.KernelRun.gatesOf m c
      ∧ (Cert.ReferenceIdeal.Read.val_main_v44 (F := Ideal) x0 x1 x2 x3 x4 x5 x6 x7 : Cert.ReferenceIdeal.S600000.Idx → EReal)
        = Cert.KernelRun.logitsOf m c := by
  subst h0 h1 h2 h3 h4 h5 h6 h7
  refine ⟨funext fun i => ?_, funext fun i => ?_⟩
  · obtain ⟨e, rfl⟩ : ∃ e : Fin 600000, i = ix1 e := ⟨i 0, eq_ix1 i⟩
    rw [Cert.RefValue.ref_gate]
    rfl
  · obtain ⟨e, rfl⟩ : ∃ e : Fin 600000, i = ix1 e := ⟨i 0, eq_ix1 i⟩
    rw [Cert.RefValue.ref_logit]
    rfl

/-- From memories that agree on the arguments both programs end with the edges' gates and logits. -/
theorem algebraic : Cert.algebraic_KernelIdeal_ReferenceIdeal := by
  intro m ρ m' ρ' hpre hagree
  refine ⟨fun c => Cert.KernelRun.gatesOf m c, fun c => Cert.KernelRun.logitsOf m c, Cert.KernelRun.run m ρ hpre, ?_⟩
  refine (θ_run Cert.ReferenceIdeal.defs _ _).mono (fun _ h c => ?_) (Cert.ReferenceIdeal.Value.run (F := Ideal) m' ρ')
  have hv := ref_gates_eq m c _ _ _ _ _ _ _ _ (hagree c).1 (hagree c).2.1 (hagree c).2.2.1 (hagree c).2.2.2.1
    (hagree c).2.2.2.2.1 (hagree c).2.2.2.2.2.1 (hagree c).2.2.2.2.2.2.1 (hagree c).2.2.2.2.2.2.2
  refine ⟨(h c).1.trans ((Cert.ReferenceIdeal.Read.val_main_v55_eq m' c).trans hv.1),
    (h c).2.1.trans ((Cert.ReferenceIdeal.Read.val_main_v44_eq m' c).trans hv.2), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
